-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S65536 : Shape := ⟨1, ![65536]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S65536 : S_.BroadcastsInDim S65536 (![] : Fin 0 → Fin S65536.rank)
  reducesTo_S65536_S_d0 : S65536.ReducesTo [0] S_

variable [Facts]

def fn {F : FTy → Type} [FloatOps F] (main_arg0 : FVec F S65536x1024 .f32) (main_arg1 : IVec S65536 32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_c_0 : IVec S_ 32 := constantI S_ 32 0#32
  let main_v4 : IVec S65536 32 := broadcastInDim S65536 ![] bcast_S_S65536 main_c_0
  let main_v5 : IVec S65536 1 := cmpi .sge main_arg1 main_v4
  let main_c_1 : IVec S_ 1 := constantI S_ 1 1#1
  let main_v6 : IVec S_ 1 := (fun x v => Host.reduce IntOp.andi x v reducesTo_S65536_S_d0 h_S_) main_v5 main_c_1
  let main_v7 : IVec S_ 1 := andi main_v3 main_v6
  let main_c_2 : IVec S_ 32 := constantI S_ 32 1024#32
  let main_v8 : IVec S65536 32 := broadcastInDim S65536 ![] bcast_S_S65536 main_c_2
  let main_v9 : IVec S65536 1 := cmpi .slt main_arg1 main_v8
  let main_c_3 : IVec S_ 1 := constantI S_ 1 1#1
  let main_v10 : IVec S_ 1 := (fun x v => Host.reduce IntOp.andi x v reducesTo_S65536_S_d0 h_S_) main_v9 main_c_3
  let main_v11 : IVec S_ 1 := andi main_v7 main_v10
  main_v11
-- ==== Kernel.lean ====
abbrev S65536x1024 : Shape := ⟨2, ![65536, 1024]⟩
abbrev S65536 : Shape := ⟨1, ![65536]⟩
abbrev S_ : Shape := ⟨0, ![]⟩
abbrev S1024 : Shape := ⟨1, ![1024]⟩
abbrev S65536x1 : Shape := ⟨2, ![65536, 1]⟩
abbrev S1x1024 : Shape := ⟨2, ![1, 1024]⟩
abbrev S16x128 : Shape := ⟨2, ![16, 128]⟩
abbrev S512x1024 : Shape := ⟨2, ![512, 1024]⟩
abbrev S512x1 : Shape := ⟨2, ![512, 1]⟩
abbrev S8x128 : Shape := ⟨2, ![8, 128]⟩
abbrev S1x1 : Shape := ⟨2, ![1, 1]⟩
abbrev S512 : Shape := ⟨1, ![512]⟩
abbrev S1 : Shape := ⟨1, ![1]⟩

abbrev nBuf : Space → Nat
  | .hbm => 32
  | .vmem => 8
  | .smem => 0
  | _ => 0

abbrev bufTy : (tb : Table) → Fin (tcTables nBuf tb) → BufTy
  | .hbm, ⟨0, _⟩ => ⟨S65536x1024, .f32⟩
  | .hbm, ⟨1, _⟩ => ⟨S65536, .i32⟩
  | .hbm, ⟨2, _⟩ => ⟨S_, .f32⟩
  | .hbm, ⟨3, _⟩ => ⟨S1024, .f32⟩
  | .hbm, ⟨4, _⟩ => ⟨S_, .i32⟩
  | .hbm, ⟨5, _⟩ => ⟨S65536, .i32⟩
  | .hbm, ⟨6, _⟩ => ⟨S65536, .i1⟩
  | .hbm, ⟨7, _⟩ => ⟨S_, .i32⟩
  | .hbm, ⟨8, _⟩ => ⟨S65536, .i32⟩
  | .hbm, ⟨9, _⟩ => ⟨S65536, .i32⟩
  | .hbm, ⟨10, _⟩ => ⟨S65536, .i32⟩
  | .hbm, ⟨11, _⟩ => ⟨S65536x1, .i32⟩
  | .hbm, ⟨12, _⟩ => ⟨S_, .f32⟩
  | .hbm, ⟨13, _⟩ => ⟨S65536, .f32⟩
  | .hbm, ⟨14, _⟩ => ⟨S1024, .f32⟩
  | .hbm, ⟨15, _⟩ => ⟨S_, .f32⟩
  | .hbm, ⟨16, _⟩ => ⟨S_, .f32⟩
  | .hbm, ⟨17, _⟩ => ⟨S1024, .f32⟩
  | .hbm, ⟨18, _⟩ => ⟨S1024, .f32⟩
  | .hbm, ⟨19, _⟩ => ⟨S_, .f32⟩
  | .hbm, ⟨20, _⟩ => ⟨S1024, .f32⟩
  | .hbm, ⟨21, _⟩ => ⟨S1024, .f32⟩
  | .hbm, ⟨22, _⟩ => ⟨S1x1024, .f32⟩
  | .hbm, ⟨23, _⟩ => ⟨S65536x1, .i32⟩
  | .hbm, ⟨24, _⟩ => ⟨S16x128, .f32⟩
  | .hbm, ⟨25, _⟩ => ⟨S1x1, .f32⟩
  | .hbm, ⟨26, _⟩ => ⟨S_, .f32⟩
  | .hbm, ⟨27, _⟩ => ⟨S1x1, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1, .i32⟩
  | .local _ .vmem, ⟨3, _⟩ => ⟨S512x1, .i32⟩
  | .local _ .vmem, ⟨4, _⟩ => ⟨S1x1024, .f32⟩
  | .local _ .vmem, ⟨5, _⟩ => ⟨S8x128, .f32⟩
  | .local _ .vmem, ⟨6, _⟩ => ⟨S8x128, .f32⟩
  | .local _ .vmem, ⟨7, _⟩ => ⟨S1x1, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 64], ![false, false]⟩

def k0_cond2 (i : grid0.Coords) : BitVec 1 :=
  let arg1 : BitVec 32 := BitVec.ofNat 32 (i 1).val
  let c63_i32 : BitVec 32 := 63#32
  let v44 : BitVec 1 := Scalar.cmpi .eq arg1 c63_i32
  let v45 : BitVec 32 := Scalar.extui v44
  let c0_i32_16 : BitVec 32 := 0#32
  let v46 : BitVec 1 := Scalar.cmpi .ne v45 c0_i32_16
  v46

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S1024 : S_.BroadcastsInDim S1024 (![] : Fin 0 → Fin S1024.rank)
  bcast_S_S65536 : S_.BroadcastsInDim S65536 (![] : Fin 0 → Fin S65536.rank)
  bcast_S65536_S65536x1_0 : S65536.BroadcastsInDim S65536x1 (![0] : Fin 1 → Fin S65536x1.rank)
  reducesTo_S1024_S_d0 : S1024.ReducesTo [0] S_
  h_S_ : 0 < S_.numel
  shapeCasts_S1024_S1x1024 : S1024.ShapeCasts S1x1024
  shapeCasts_S65536_S65536x1 : S65536.ShapeCasts S65536x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x1024_S512x1024_0_0 : ∀ a, (![0, 0] : Fin 2 → Nat) a + S512x1024.size a ≤ S512x1024.size a
  h_S512x1024 : 0 < S512x1024.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  reduces_S512x1024_S512 : S512x1024.Reduces [1] S512
  shapeCasts_S512_S512x1 : S512.ShapeCasts S512x1
  broadcasts_S512x1_S512x1024 : S512x1.Broadcasts S512x1024
  iota_S512x1024_d1_w32 : S512x1024.Iotas .tc 32 [1]
  natLt_1_32 : 1 < 32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  reduces_S512x1_S1 : S512x1.Reduces [0] S1
  shapeCasts_S1_S1x1 : S1.ShapeCasts S1x1
  broadcasts_S1x1_S8x128 : S1x1.Broadcasts S8x128
  inb_S8x128_S8x128_0_0 : ∀ a, (![0, 0] : Fin 2 → Nat) a + S8x128.size a ≤ S8x128.size a
  h_S8x128 : 0 < S8x128.numel
  slices_S16x128_S1x1_0_0 : S16x128.Slices ![0, 0] S1x1
  shapeCasts_S1x1_S_ : S1x1.ShapeCasts S_
  slices_S16x128_S1x1_8_0 : S16x128.Slices ![8, 0] S1x1
  scatter_S1024_S65536x1_S65536_n_0_0_1_wf : ScatterDims.WF S1024 S65536x1 S65536 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S65536x1024.size a
  hwx0_0 : ∀ i : grid0.Coords, EltTy.bits .f32 = 32 ∨ (Rect.block (s := S65536x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S65536x1.size a
  hwx0_1 : ∀ i : grid0.Coords, EltTy.bits .i32 = 32 ∨ (Rect.block (s := S65536x1) S512x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S16x128.size a
  hwx0_3 : ∀ i : grid0.Coords, EltTy.bits .f32 = 32 ∨ (Rect.block (s := S16x128) S8x128.size (cc0_transform_3 i) (hinb0_3 i)).WholeWords (EltTy.packing .f32)

variable [Facts₀]

def scatter_S1024_S65536x1_S65536_n_0_0_1 : ScatterDims S1024 S65536x1 S65536 where
  updateWindowDims := []
  insertedWindowDims := [0]
  scatterDimsToOperandDims := [0]
  indexVectorDim := 1
  wf := scatter_S1024_S65536x1_S65536_n_0_0_1_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S65536x1024 : Shape := ⟨2, ![65536, 1024]⟩
abbrev S65536 : Shape := ⟨1, ![65536]⟩
abbrev S_ : Shape := ⟨0, ![]⟩
abbrev S1024 : Shape := ⟨1, ![1024]⟩
abbrev S65536x1 : Shape := ⟨2, ![65536, 1]⟩
abbrev S65536x2 : Shape := ⟨2, ![65536, 2]⟩

abbrev nBuf : Space → Nat
  | .hbm => 97
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536, .i32⟩
  | .hbm, ⟨2, _⟩ => ⟨S_, .f32⟩
  | .hbm, ⟨3, _⟩ => ⟨S1024, .f32⟩
  | .hbm, ⟨4, _⟩ => ⟨S_, .i32⟩
  | .hbm, ⟨5, _⟩ => ⟨S65536, .i32⟩
  | .hbm, ⟨6, _⟩ => ⟨S65536, .i1⟩
  | .hbm, ⟨7, _⟩ => ⟨S_, .i32⟩
  | .hbm, ⟨8, _⟩ => ⟨S65536, .i32⟩
  | .hbm, ⟨9, _⟩ => ⟨S65536, .i32⟩
  | .hbm, ⟨10, _⟩ => ⟨S65536, .i32⟩
  | .hbm, ⟨11, _⟩ => ⟨S65536x1, .i32⟩
  | .hbm, ⟨12, _⟩ => ⟨S_, .f32⟩
  | .hbm, ⟨13, _⟩ => ⟨S65536, .f32⟩
  | .hbm, ⟨14, _⟩ => ⟨S1024, .f32⟩
  | .hbm, ⟨15, _⟩ => ⟨S_, .f32⟩
  | .hbm, ⟨16, _⟩ => ⟨S_, .f32⟩
  | .hbm, ⟨17, _⟩ => ⟨S1024, .f32⟩
  | .hbm, ⟨18, _⟩ => ⟨S1024, .f32⟩
  | .hbm, ⟨19, _⟩ => ⟨S_, .f32⟩
  | .hbm, ⟨20, _⟩ => ⟨S1024, .f32⟩
  | .hbm, ⟨21, _⟩ => ⟨S1024, .f32⟩
  | .hbm, ⟨22, _⟩ => ⟨S_, .f32⟩
  | .hbm, ⟨23, _⟩ => ⟨S65536, .f32⟩
  | .hbm, ⟨24, _⟩ => ⟨S_, .f32⟩
  | .hbm, ⟨25, _⟩ => ⟨S65536, .f32⟩
  | .hbm, ⟨26, _⟩ => ⟨S65536, .f32⟩
  | .hbm, ⟨27, _⟩ => ⟨S65536x1, .f32⟩
  | .hbm, ⟨28, _⟩ => ⟨S65536x1024, .f32⟩
  | .hbm, ⟨29, _⟩ => ⟨S65536x1024, .f32⟩
  | .hbm, ⟨30, _⟩ => ⟨S65536x1024, .f32⟩
  | .hbm, ⟨31, _⟩ => ⟨S_, .f32⟩
  | .hbm, ⟨32, _⟩ => ⟨S65536, .f32⟩
  | .hbm, ⟨33, _⟩ => ⟨S65536x1, .f32⟩
  | .hbm, ⟨34, _⟩ => ⟨S65536x1, .f32⟩
  | .hbm, ⟨35, _⟩ => ⟨S65536x1024, .f32⟩
  | .hbm, ⟨36, _⟩ => ⟨S65536x1024, .f32⟩
  | .hbm, ⟨37, _⟩ => ⟨S65536x1024, .f32⟩
  | .hbm, ⟨38, _⟩ => ⟨S65536, .i32⟩
  | .hbm, ⟨39, _⟩ => ⟨S_, .i32⟩
  | .hbm, ⟨40, _⟩ => ⟨S65536, .i32⟩
  | .hbm, ⟨41, _⟩ => ⟨S65536, .i1⟩
  | .hbm, ⟨42, _⟩ => ⟨S_, .i32⟩
  | .hbm, ⟨43, _⟩ => ⟨S65536, .i32⟩
  | .hbm, ⟨44, _⟩ => ⟨S65536, .i32⟩
  | .hbm, ⟨45, _⟩ => ⟨S65536, .i32⟩
  | .hbm, ⟨46, _⟩ => ⟨S_, .i32⟩
  | .hbm, ⟨47, _⟩ => ⟨S65536, .i32⟩
  | .hbm, ⟨48, _⟩ => ⟨S65536, .i1⟩
  | .hbm, ⟨49, _⟩ => ⟨S_, .i32⟩
  | .hbm, ⟨50, _⟩ => ⟨S65536, .i32⟩
  | .hbm, ⟨51, _⟩ => ⟨S65536, .i32⟩
  | .hbm, ⟨52, _⟩ => ⟨S65536, .i32⟩
  | .hbm, ⟨53, _⟩ => ⟨S65536x1, .i32⟩
  | .hbm, ⟨54, _⟩ => ⟨S65536x1, .i32⟩
  | .hbm, ⟨55, _⟩ => ⟨S65536x2, .i32⟩
  | .hbm, ⟨56, _⟩ => ⟨S65536, .f32⟩
  | .hbm, ⟨57, _⟩ => ⟨S_, .i32⟩
  | .hbm, ⟨58, _⟩ => ⟨S65536, .i32⟩
  | .hbm, ⟨59, _⟩ => ⟨S65536, .i1⟩
  | .hbm, ⟨60, _⟩ => ⟨S_, .i32⟩
  | .hbm, ⟨61, _⟩ => ⟨S65536, .i32⟩
  | .hbm, ⟨62, _⟩ => ⟨S65536, .i32⟩
  | .hbm, ⟨63, _⟩ => ⟨S65536, .i32⟩
  | .hbm, ⟨64, _⟩ => ⟨S_, .i32⟩
  | .hbm, ⟨65, _⟩ => ⟨S65536, .i32⟩
  | .hbm, ⟨66, _⟩ => ⟨S65536, .i1⟩
  | .hbm, ⟨67, _⟩ => ⟨S_, .i32⟩
  | .hbm, ⟨68, _⟩ => ⟨S65536, .i32⟩
  | .hbm, ⟨69, _⟩ => ⟨S65536, .i32⟩
  | .hbm, ⟨70, _⟩ => ⟨S65536, .i32⟩
  | .hbm, ⟨71, _⟩ => ⟨S65536x1, .i32⟩
  | .hbm, ⟨72, _⟩ => ⟨S65536x1, .i32⟩
  | .hbm, ⟨73, _⟩ => ⟨S65536x2, .i32⟩
  | .hbm, ⟨74, _⟩ => ⟨S65536, .f32⟩
  | .hbm, ⟨75, _⟩ => ⟨S_, .f32⟩
  | .hbm, ⟨76, _⟩ => ⟨S65536, .f32⟩
  | .hbm, ⟨77, _⟩ => ⟨S65536, .f32⟩
  | .hbm, ⟨78, _⟩ => ⟨S_, .f32⟩
  | .hbm, ⟨79, _⟩ => ⟨S65536, .f32⟩
  | .hbm, ⟨80, _⟩ => ⟨S65536, .f32⟩
  | .hbm, ⟨81, _⟩ => ⟨S65536, .f32⟩
  | .hbm, ⟨82, _⟩ => ⟨S65536, .f32⟩
  | .hbm, ⟨83, _⟩ => ⟨S_, .i32⟩
  | .hbm, ⟨84, _⟩ => ⟨S65536, .i32⟩
  | .hbm, ⟨85, _⟩ => ⟨S65536, .i1⟩
  | .hbm, ⟨86, _⟩ => ⟨S_, .i32⟩
  | .hbm, ⟨87, _⟩ => ⟨S65536, .i32⟩
  | .hbm, ⟨88, _⟩ => ⟨S65536, .i32⟩
  | .hbm, ⟨89, _⟩ => ⟨S65536, .i32⟩
  | .hbm, ⟨90, _⟩ => ⟨S65536x1, .i32⟩
  | .hbm, ⟨91, _⟩ => ⟨S65536, .f32⟩
  | .hbm, ⟨92, _⟩ => ⟨S65536, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_call0_cst_0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_cst_1 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_c_4 : Ref sig .tc := ⟨.hbm, 39, rfl⟩
abbrev main_v17 : Ref sig .tc := ⟨.hbm, 40, rfl⟩
abbrev main_v18 : Ref sig .tc := ⟨.hbm, 41, rfl⟩
abbrev main_c_5 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_c_6 : Ref sig .tc := ⟨.hbm, 46, rfl⟩
abbrev main_v22 : Ref sig .tc := ⟨.hbm, 47, rfl⟩
abbrev main_v23 : Ref sig .tc := ⟨.hbm, 48, rfl⟩
abbrev main_c_7 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_c_8 : Ref sig .tc := ⟨.hbm, 57, rfl⟩
abbrev main_v31 : Ref sig .tc := ⟨.hbm, 58, rfl⟩
abbrev main_v32 : Ref sig .tc := ⟨.hbm, 59, rfl⟩
abbrev main_c_9 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_c_10 : Ref sig .tc := ⟨.hbm, 64, rfl⟩
abbrev main_v36 : Ref sig .tc := ⟨.hbm, 65, rfl⟩
abbrev main_v37 : Ref sig .tc := ⟨.hbm, 66, rfl⟩
abbrev main_c_11 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_cst_12 : Ref sig .tc := ⟨.hbm, 75, rfl⟩
abbrev main_v45 : Ref sig .tc := ⟨.hbm, 76, rfl⟩
abbrev main_v46 : Ref sig .tc := ⟨.hbm, 77, rfl⟩
abbrev main_cst_13 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_c_14 : Ref sig .tc := ⟨.hbm, 83, rfl⟩
abbrev main_v51 : Ref sig .tc := ⟨.hbm, 84, rfl⟩
abbrev main_v52 : Ref sig .tc := ⟨.hbm, 85, rfl⟩
abbrev main_c_15 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_16 : Ref sig .tc := ⟨.hbm, 93, rfl⟩
abbrev main_v59 : Ref sig .tc := ⟨.hbm, 94, rfl⟩
abbrev main_cst_17 : Ref sig .tc := ⟨.hbm, 95, rfl⟩
abbrev main_v60 : Ref sig .tc := ⟨.hbm, 96, rfl⟩

abbrev nD : Nat := 1
abbrev τ : Topo := Topo.v7x

variable {F : FTy → Type} [FloatOps F]

class Facts₀ : Prop where
  bcast_S_S1024 : S_.BroadcastsInDim S1024 (![] : Fin 0 → Fin S1024.rank)
  bcast_S_S65536 : S_.BroadcastsInDim S65536 (![] : Fin 0 → Fin S65536.rank)
  bcast_S65536_S65536x1_0 : S65536.BroadcastsInDim S65536x1 (![0] : Fin 1 → Fin S65536x1.rank)
  reducesTo_S1024_S_d0 : S1024.ReducesTo [0] S_
  h_S_ : 0 < S_.numel
  reducesTo_S65536x1024_S65536_d1 : S65536x1024.ReducesTo [1] S65536
  bcast_S65536x1_S65536x1024_0_1 : S65536x1.BroadcastsInDim S65536x1024 (![0, 1] : Fin 2 → Fin S65536x1024.rank)
  concatenates_S65536x1_S65536x1_S65536x2_d1 : Shape.Concatenates [S65536x1, S65536x1] S65536x2 1
  reducesTo_S65536_S_d0 : S65536.ReducesTo [0] S_
  scatter_S1024_S65536x1_S65536_n_0_0_1_wf : ScatterDims.WF S1024 S65536x1 S65536 [] [0] [0] 1
  gather_S65536x1024_S65536x2_S65536_n_01_n_n_01_1_11_wf : GatherDims.WF S65536x1024 S65536x2 S65536 [] [0, 1] [] [0, 1] [] 1 ![1, 1]
  gather_S1024_S65536x1_S65536_n_0_n_n_0_1_1_wf : GatherDims.WF S1024 S65536x1 S65536 [] [0] [] [0] [] 1 ![1]

variable [Facts₀]

def scatter_S1024_S65536x1_S65536_n_0_0_1 : ScatterDims S1024 S65536x1 S65536 where
  updateWindowDims := []
  insertedWindowDims := [0]
  scatterDimsToOperandDims := [0]
  indexVectorDim := 1
  wf := scatter_S1024_S65536x1_S65536_n_0_0_1_wf
def gather_S65536x1024_S65536x2_S65536_n_01_n_n_01_1_11 : GatherDims S65536x1024 S65536x2 S65536 where
  offsetDims := []
  collapsedSliceDims := [0, 1]
  operandBatchingDims := []
  startIndicesBatchingDims := []
  startIndexMap := [0, 1]
  indexVectorDim := 1
  sliceSizes := ![1, 1]
  wf := gather_S65536x1024_S65536x2_S65536_n_01_n_n_01_1_11_wf
def gather_S1024_S65536x1_S65536_n_0_n_n_0_1_1 : GatherDims S1024 S65536x1 S65536 where
  offsetDims := []
  collapsedSliceDims := [0]
  operandBatchingDims := []
  startIndicesBatchingDims := []
  startIndexMap := [0]
  indexVectorDim := 1
  sliceSizes := ![1]
  wf := gather_S1024_S65536x1_S65536_n_0_n_n_0_1_1_wf

class Facts : Prop extends Facts₀ where

variable [Facts]
-- ==== Proof.Spec.lean ====
/-
  The mathematics both programs compute, on the extended reals.

  For a row of logits x : Fin 1024 → EReal, a class word t and class weights w the loss of the row is
      −(1 − p)² · ℓ · w_t,   ℓ = (x_t − max x) − log Σ_j exp (x_j − max x),   p = exp ℓ.
  The kernel reads x_t − max x and w_t through a one-hot mask (a sum of products with 0 and 1) and squares by a
  product (`rowK`); the reference reads them at the index and squares by the power function (`rowR`).  They agree
  whenever every logit of the row is a real number: then ℓ is a real, 1 − p is a real, and the power function at
  exponent 2 is the product.  The batch loss is the sum of the rows' losses; the kernel adds them block by block
  (512 rows a block, 64 blocks a core, two cores), the reference all at once.
-/
import Idealize.ShloMosaic.PureOps.Ideal
import Idealize.ShloMosaic.PureOps.Ideal.Laws
import Mathlib.Algebra.BigOperators.Intervals
import Mathlib.Algebra.BigOperators.Fin

noncomputable section

namespace Cert.Focal

open Idealize.ShloMosaic

/-- The one-hot mask of the class word `t` at column `j`: 1 where the column's number is the word, else 0. -/
def hot (t : BitVec 32) (j : Fin 1024) : EReal := if BitVec.ofNat 32 j.val = t then 1 else 0

/-- A row's maximum: the fold of `max` from −∞ over its 1024 entries. -/
def rmax (x : Fin 1024 → EReal) : EReal := (Finset.univ : Finset (Fin 1024)).fold max ⊥ x

/-- The row shifted by its maximum. -/
def shift (x : Fin 1024 → EReal) (j : Fin 1024) : EReal := x j - rmax x

/-- The logarithm of the sum of the exponentials of the shifted row. -/
def lse (x : Fin 1024 → EReal) : EReal := Ideal.log (∑ j : Fin 1024, Ideal.exp (shift x j))

/-- The log-probability of class `k`. -/
def logp (x : Fin 1024 → EReal) (k : Fin 1024) : EReal := shift x k - lse x

/-- The masked log-probability the kernel forms: the shifted logit picked out by the mask, less the log-sum. -/
def logpK (x : Fin 1024 → EReal) (t : BitVec 32) : EReal := (∑ j : Fin 1024, shift x j * hot t j) - lse x

/-- The kernel's loss of one row. -/
def rowK (x : Fin 1024 → EReal) (t : BitVec 32) (w : Fin 1024 → EReal) : EReal :=
  0 - ((((1 - Ideal.exp (logpK x t)) * (1 - Ideal.exp (logpK x t))) * logpK x t) * (∑ j : Fin 1024, hot t j * w j))

/-- The reference's loss of one row whose class is `k`. -/
def rowR (x : Fin 1024 → EReal) (k : Fin 1024) (w : Fin 1024 → EReal) : EReal :=
  ((-(Ideal.pow (1 - Ideal.exp (logp x k)) ((2 : ℝ) : EReal))) * logp x k) * w k

/-- The mask of the word numbered `k` is 1 at column `k` and 0 at every other column: a column's number is below
    2³², so two columns with one word are one column. -/
theorem hot_ofNat (k j : Fin 1024) : hot (BitVec.ofNat 32 k.val) j = if j = k then 1 else 0 := by
  unfold hot
  have h : (BitVec.ofNat 32 j.val = BitVec.ofNat 32 k.val) ↔ j = k := by
    constructor
    · intro e
      have e2 := congrArg BitVec.toNat e
      simp only [BitVec.toNat_ofNat] at e2
      have hj : j.val % 2 ^ 32 = j.val := Nat.mod_eq_of_lt (by omega)
      have hk : k.val % 2 ^ 32 = k.val := Nat.mod_eq_of_lt (by omega)
      rw [hj, hk] at e2
      exact Fin.ext e2
    · intro e
      rw [e]
  simp only [h]

/-- The mask picks one entry out of a sum of products (mask on the right). -/
theorem sum_mul_hot (f : Fin 1024 → EReal) (k : Fin 1024) :
    (∑ j : Fin 1024, f j * hot (BitVec.ofNat 32 k.val) j) = f k := by
  rw [Finset.sum_eq_single k]
  · rw [hot_ofNat, if_pos rfl, mul_one]
  · intro j _ hjk
    rw [hot_ofNat, if_neg hjk, mul_zero]
  · intro h
    exact absurd (Finset.mem_univ k) h

/-- The mask picks one entry out of a sum of products (mask on the left). -/
theorem sum_hot_mul (f : Fin 1024 → EReal) (k : Fin 1024) :
    (∑ j : Fin 1024, hot (BitVec.ofNat 32 k.val) j * f j) = f k := by
  rw [Finset.sum_eq_single k]
  · rw [hot_ofNat, if_pos rfl, one_mul]
  · intro j _ hjk
    rw [hot_ofNat, if_neg hjk, zero_mul]
  · intro h
    exact absurd (Finset.mem_univ k) h

/-- A finite sum of real numbers read in the extended reals is the real sum read there. -/
theorem sum_coe_real (g : Fin 1024 → ℝ) (s : Finset (Fin 1024)) :
    (∑ j ∈ s, ((g j : ℝ) : EReal)) = ((∑ j ∈ s, g j : ℝ) : EReal) := by
  induction s using Finset.induction_on with
  | empty => rw [Finset.sum_empty, Finset.sum_empty, EReal.coe_zero]
  | insert a s ha ih => rw [Finset.sum_insert ha, Finset.sum_insert ha, ih, EReal.coe_add]

/-- With every logit of the row a real number the log-probability of a class is a real number. -/
theorem logp_real (x : Fin 1024 → EReal) (hx : ∀ j, ∃ r : ℝ, x j = (r : EReal)) (k : Fin 1024) :
    ∃ r : ℝ, logp x k = (r : EReal) := by
  choose xr hxr using hx
  -- the maximum of the row is a real: it is at least the entry at k and below +∞
  have hk_le : x k ≤ rmax x := by
    unfold rmax
    exact (Finset.le_fold_max _).mpr (Or.inr ⟨k, Finset.mem_univ k, le_rfl⟩)
  have hlt : rmax x < ⊤ := by
    unfold rmax
    exact (Finset.fold_max_lt _).mpr ⟨bot_lt_top, fun j _ => by rw [hxr j]; exact EReal.coe_lt_top _⟩
  have hne_bot : rmax x ≠ ⊥ := by
    intro h
    rw [h, hxr k] at hk_le
    exact absurd hk_le (not_le.mpr (EReal.bot_lt_coe _))
  obtain ⟨m, hm⟩ : ∃ m : ℝ, rmax x = (m : EReal) :=
    ⟨(rmax x).toReal, (EReal.coe_toReal hlt.ne hne_bot).symm⟩
  -- so the shifted row is real, its exponentials are positive reals, and so is their sum
  have hshift : ∀ j, shift x j = ((xr j - m : ℝ) : EReal) := by
    intro j
    unfold shift
    rw [hxr j, hm, EReal.coe_sub]
  have hsum : (∑ j : Fin 1024, Ideal.exp (shift x j)) = ((∑ j : Fin 1024, Real.exp (xr j - m) : ℝ) : EReal) := by
    rw [← sum_coe_real]
    refine Finset.sum_congr rfl (fun j _ => ?_)
    rw [hshift j, Ideal.exp_coe]
  have hpos : 0 < ∑ j : Fin 1024, Real.exp (xr j - m) :=
    Finset.sum_pos (fun j _ => Real.exp_pos _) ⟨k, Finset.mem_univ k⟩
  have hlse : lse x = ((Real.log (∑ j : Fin 1024, Real.exp (xr j - m)) : ℝ) : EReal) := by
    unfold lse
    rw [hsum, Ideal.log_coe, if_neg (not_le.mpr hpos)]
  refine ⟨(xr k - m) - Real.log (∑ j : Fin 1024, Real.exp (xr j - m)), ?_⟩
  unfold logp
  rw [hshift k, hlse, ← EReal.coe_sub]

/-- With every logit of the row a real number the log-probability of a class is not +∞. -/
theorem logp_ne_top (x : Fin 1024 → EReal) (hx : ∀ j, ∃ r : ℝ, x j = (r : EReal)) (k : Fin 1024) :
    logp x k ≠ ⊤ := by
  obtain ⟨r, hr⟩ := logp_real x hx k
  rw [hr]
  exact EReal.coe_ne_top r

/-- The power function at exponent 2 is the product, away from −∞. -/
theorem pow_two_eq_mul (d : EReal) (hd : d ≠ ⊥) : Ideal.pow d ((2 : ℝ) : EReal) = d * d := by
  induction d using EReal.rec with
  | bot => exact absurd rfl hd
  | coe r =>
    rw [Ideal.pow_coe_coe, ← EReal.coe_mul]
    exact congrArg _ ((Real.rpow_two r).trans (sq r))
  | top =>
    rw [Ideal.pow_top, if_pos (EReal.coe_pos.mpr (by norm_num)), EReal.top_mul_top]

/-- THE ROW LAW: on a row of real logits whose class word is the number of column `k`, the kernel's and the
    reference's losses are one extended real. -/
theorem rowK_eq_rowR (x : Fin 1024 → EReal) (hx : ∀ j, ∃ r : ℝ, x j = (r : EReal)) (k : Fin 1024)
    (w : Fin 1024 → EReal) : rowK x (BitVec.ofNat 32 k.val) w = rowR x k w := by
  -- the masked log-probability is the log-probability at k
  have hl : logpK x (BitVec.ofNat 32 k.val) = logp x k := by
    unfold logpK logp
    rw [sum_mul_hot]
  unfold rowK rowR
  rw [hl, sum_hot_mul]
  -- the log-probability is a real ℓ, so 1 − exp ℓ is a real and the power at 2 is the product
  obtain ⟨r, hr⟩ := logp_real x hx k
  have hd : 1 - Ideal.exp (logp x k) ≠ ⊥ := by
    rw [hr, Ideal.exp_coe, ← EReal.coe_one, ← EReal.coe_sub]
    exact EReal.coe_ne_bot _
  rw [pow_two_eq_mul _ hd, zero_sub, EReal.neg_mul, EReal.neg_mul]

/-- A block's 512 rows as a stretch of the row numbers. -/
theorem sum_block (K : ℕ → EReal) (b : ℕ) :
    (∑ i : Fin 512, K (512 * b + i.val)) = ∑ r ∈ Finset.Ico (512 * b) (512 * b + 512), K r := by
  rw [Finset.sum_Ico_eq_sum_range, Nat.add_sub_cancel_left]
  exact Fin.sum_univ_eq_sum_range (fun i => K (512 * b + i)) 512

/-- The two cores' halves make the whole batch. -/
theorem sum_halves (K : ℕ → EReal) :
    (∑ r ∈ Finset.Ico 0 32768, K r) + (∑ r ∈ Finset.Ico 32768 65536, K r) = ∑ r : Fin 65536, K r.val := by
  rw [Finset.sum_Ico_consecutive K (by norm_num : (0 : ℕ) ≤ 32768) (by norm_num : (32768 : ℕ) ≤ 65536),
    ← Finset.range_eq_Ico]
  exact (Fin.sum_univ_eq_sum_range K 65536).symm

/-! ## The float literals of the two programs, once -/

theorem ofBits_one : Ideal.ofBits .f32 0x3F800000#32 = (1 : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_neg_inf : Ideal.ofBits .f32 0xFF800000#32 = (⊥ : EReal) := by
  simp [Ideal.ofBits, Ideal.ieee]

end Cert.Focal

end
-- ==== Proof.KPieces.lean ====
/-
  What each control case of the kernel body leaves in the carried 1×1 accumulator and, at a core's last step, in
  the 8×128 output block: the pieces the body's run stored, read back, are the body's payloads.
    first step of a core (A): the accumulator is reset to zero and the block's sum added:  pay1 (pay4 x) pay3
    middle steps (B):          the block's sum is added to what the step before left:       pay1 (pay4 x) acc
    last step of a core (C):   the same, and the output block is the new accumulator broadcast.
-/
import proofs.«415318_j29231547417214_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- Case A: the accumulator after the step is the block's sum added to the zero just stored. -/
theorem scr_A (c : Dev nD) (i : grid0.Coords) (arg2 : Memref sig .tc .vmem S512x1024 .f32) (harg2 : arg2.IsWhole) (arg3 : Memref sig .tc .vmem S512x1 .i32) (harg3 : arg3.IsWhole) (arg4 : Memref sig .tc .vmem S1x1024 .f32) (harg4 : arg4.IsWhole) (arg5 : Memref sig .tc .vmem S8x128 .f32) (harg5 : arg5.IsWhole) (arg6 : Memref sig .tc .vmem S1x1 .f32) (harg6 : arg6.IsWhole) (hc0 : cond0_0 i) (hc1 : ¬cond0_1 i)
    (x0 : Vec F S512x1024 .f32) (x1 : Vec F S512x1 .i32) (x2 : Vec F S1x1024 .f32) :
    sout0_A_0 c i arg2 harg2 arg3 harg3 arg4 harg4 arg5 harg5 arg6 harg6 hc0 hc1 x0 x1 x2
      = k0_pay1 (k0_pay4 x0 x1 x2) (k0_pay3 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S1x1) hz, View.readCov_unit_zero (S := S1x1) _ hz]
  simp only [View.readAt_eq_ld, harg2.read_unread, harg3.read_unread, harg4.read_unread, View.ld_unit_zero (S := S512x1024) hz,
    View.ld_unit_zero (S := S512x1) hz, View.ld_unit_zero (S := S1x1024) hz]

/-- Case B: the block's sum added to what the step before left. -/
theorem scr_B (c : Dev nD) (i : grid0.Coords) (arg2 : Memref sig .tc .vmem S512x1024 .f32) (harg2 : arg2.IsWhole) (arg3 : Memref sig .tc .vmem S512x1 .i32) (harg3 : arg3.IsWhole) (arg4 : Memref sig .tc .vmem S1x1024 .f32) (harg4 : arg4.IsWhole) (arg5 : Memref sig .tc .vmem S8x128 .f32) (harg5 : arg5.IsWhole) (arg6 : Memref sig .tc .vmem S1x1 .f32) (harg6 : arg6.IsWhole) (hc0 : ¬cond0_0 i) (hc1 : ¬cond0_1 i)
    (x0 : Vec F S512x1024 .f32) (x1 : Vec F S512x1 .i32) (x2 : Vec F S1x1024 .f32) (xs0 : Vec F S1x1 .f32) :
    sout0_B_0 c i arg2 harg2 arg3 harg3 arg4 harg4 arg5 harg5 arg6 harg6 hc0 hc1 x0 x1 x2 xs0
      = k0_pay1 (k0_pay4 x0 x1 x2) xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero hz]
  simp only [View.readAt_eq_ld, harg2.read_unread, harg3.read_unread, harg4.read_unread, harg6.read_unread,
    View.ld_unit_zero (S := S512x1024) hz, View.ld_unit_zero (S := S512x1) hz, View.ld_unit_zero (S := S1x1024) hz,
    View.ld_unit_zero (S := S1x1) hz]

/-- Case C: the accumulator as in case B. -/
theorem scr_C (c : Dev nD) (i : grid0.Coords) (arg2 : Memref sig .tc .vmem S512x1024 .f32) (harg2 : arg2.IsWhole) (arg3 : Memref sig .tc .vmem S512x1 .i32) (harg3 : arg3.IsWhole) (arg4 : Memref sig .tc .vmem S1x1024 .f32) (harg4 : arg4.IsWhole) (arg5 : Memref sig .tc .vmem S8x128 .f32) (harg5 : arg5.IsWhole) (arg6 : Memref sig .tc .vmem S1x1 .f32) (harg6 : arg6.IsWhole) (hc0 : ¬cond0_0 i) (hc1 : cond0_1 i)
    (x0 : Vec F S512x1024 .f32) (x1 : Vec F S512x1 .i32) (x2 : Vec F S1x1024 .f32) (xs0 : Vec F S1x1 .f32) :
    sout0_C_0 c i arg2 harg2 arg3 harg3 arg4 harg4 arg5 harg5 arg6 harg6 hc0 hc1 x0 x1 x2 xs0
      = k0_pay1 (k0_pay4 x0 x1 x2) xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz]
  simp only [View.readAt_eq_ld, harg2.read_unread, harg3.read_unread, harg4.read_unread, harg6.read_unread,
    View.ld_unit_zero (S := S512x1024) hz, View.ld_unit_zero (S := S512x1) hz, View.ld_unit_zero (S := S1x1024) hz,
    View.ld_unit_zero (S := S1x1) hz]

/-- Case C: the output block is the new accumulator, broadcast over the 8×128 block. -/
theorem out_C (c : Dev nD) (i : grid0.Coords) (arg2 : Memref sig .tc .vmem S512x1024 .f32) (harg2 : arg2.IsWhole) (arg3 : Memref sig .tc .vmem S512x1 .i32) (harg3 : arg3.IsWhole) (arg4 : Memref sig .tc .vmem S1x1024 .f32) (harg4 : arg4.IsWhole) (arg5 : Memref sig .tc .vmem S8x128 .f32) (harg5 : arg5.IsWhole) (arg6 : Memref sig .tc .vmem S1x1 .f32) (harg6 : arg6.IsWhole) (hc0 : ¬cond0_0 i) (hc1 : cond0_1 i)
    (x0 : Vec F S512x1024 .f32) (x1 : Vec F S512x1 .i32) (x2 : Vec F S1x1024 .f32) (xs0 : Vec F S1x1 .f32) :
    out0_C_3 c i arg2 harg2 arg3 harg3 arg4 harg4 arg5 harg5 arg6 harg6 hc0 hc1 x0 x1 x2 xs0
      = k0_pay2 (k0_pay1 (k0_pay4 x0 x1 x2) xs0) := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz, View.readCov_unit_zero (S := S1x1) _ hz]
  simp only [View.readAt_eq_ld, harg2.read_unread, harg3.read_unread, harg4.read_unread, harg6.read_unread,
    View.ld_unit_zero (S := S512x1024) hz, View.ld_unit_zero (S := S512x1) hz, View.ld_unit_zero (S := S1x1024) hz,
    View.ld_unit_zero (S := S1x1) hz]

end Cert.KernelIdeal.Pieces

end
-- ==== Proof.KPayload.lean ====
/-
  The body's payloads read on the extended reals, index by index.
  The block payload: for each of the block's 512 rows the row's loss (`Cert.Focal.rowK` of the row's 1024 logits,
  its class word and the class weights), summed over the rows.  The accumulator payload adds; the reset payload is
  zero; the output payload repeats the 1×1 accumulator over the block.
-/
import proofs.«415318_j29231547417214_2_alg».proof.Proof.Gen.KernelIdeal.Skeleton
import proofs.«415318_j29231547417214_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.ShloMosaic.ValueIdx

namespace Cert.KernelIdeal.Payload

open Cert.KernelIdeal Cert.KernelIdeal.Gen

/-! ## Layout forms: a column kept as an axis of extent one -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The pointwise transcendental operations at an index -/

theorem exp_apply {s : Shape} {φ : FTy} (a : FVec Ideal s φ) (i : s.Idx) : exp a i = Ideal.exp (a i) := rfl
theorem log_apply {s : Shape} {φ : FTy} (a : FVec Ideal s φ) (i : s.Idx) : log a i = Ideal.log (a i) := rfl

/-! ## The reductions along the lanes and along the rows -/

/-- The sum along the lanes, at row `i`: the sum of the row's entries. -/
theorem lane_sum (src : FVec Ideal S512x1024 .f32) (i : Fin 512) :
    multiReduction (F := Ideal) .add [1] S512 src 0x00000000#32 reduces_S512x1024_S512 (.inl rfl) rfl (ix1 i)
      = ∑ j : Fin 1024, src (ix2 i j) := by
  refine (Ideal.multiReduction_add_single src _ reduces_S512x1024_S512 _ _ _).trans ?_
  refine Finset.sum_congr rfl fun k _ => congrArg src ?_
  funext a
  match a with
  | ⟨0, _⟩ => exact Fin.ext rfl
  | ⟨1, _⟩ => exact Fin.ext rfl

/-- The maximum along the lanes, at row `i`: the row's maximum. -/
theorem lane_max (src : FVec Ideal S512x1024 .f32) (i : Fin 512) :
    multiReduction (F := Ideal) .maximumf [1] S512 src 0xFF800000#32 reduces_S512x1024_S512 (.inl rfl) rfl (ix1 i)
      = Cert.Focal.rmax (fun j : Fin 1024 => src (ix2 i j)) := by
  refine (Ideal.multiReduction_maximumf_single src _ reduces_S512x1024_S512 _ _ _).trans ?_
  have hf : (src ∘ (reduces_S512x1024_S512).lift (ix1 i)) = fun j : Fin 1024 => src (ix2 i j) := by
    funext k
    refine congrArg src ?_
    funext a
    match a with
    | ⟨0, _⟩ => exact Fin.ext rfl
    | ⟨1, _⟩ => exact Fin.ext rfl
  rw [hf]
  show Finset.fold max (Ideal.ofBits .f32 0xFF800000#32) (fun j : Fin 1024 => src (ix2 i j)) Finset.univ = _
  rw [Cert.Focal.ofBits_neg_inf]
  rfl

/-- The lane sum kept as a column, at row `i`. -/
theorem col_sum (src : FVec Ideal S512x1024 .f32) (i : Fin 512) (u : Fin 1) :
    shapeCast S512x1 (multiReduction (F := Ideal) .add [1] S512 src 0x00000000#32 reduces_S512x1024_S512 (.inl rfl) rfl)
        shapeCasts_S512_S512x1 (ix2 i u)
      = ∑ j : Fin 1024, src (ix2 i j) :=
  (shapeCast_a_a1_apply _ _ i u).trans (lane_sum src i)

/-- The lane maximum kept as a column and spread over the lanes again, at `(i, j)`. -/
theorem col_max (src : FVec Ideal S512x1024 .f32) (i : Fin 512) (j : Fin 1024) :
    broadcastTo S512x1024 (shapeCast S512x1 (multiReduction (F := Ideal) .maximumf [1] S512 src 0xFF800000#32
        reduces_S512x1024_S512 (.inl rfl) rfl) shapeCasts_S512_S512x1) broadcasts_S512x1_S512x1024 (ix2 i j)
      = Cert.Focal.rmax (fun j : Fin 1024 => src (ix2 i j)) :=
  (broadcastTo_a1_ab_apply _ _ i j).trans ((shapeCast_a_a1_apply _ _ i 0).trans (lane_max src i))

/-- The sum of a column over its 512 rows, read at the 1×1 result's one index. -/
theorem rows_sum (v : FVec Ideal S512x1 .f32) (y : S1x1.Idx) :
    shapeCast S1x1 (multiReduction (F := Ideal) .add [0] S1 v 0x00000000#32 reduces_S512x1_S1 (.inl rfl) rfl)
        shapeCasts_S1_S1x1 y
      = ∑ i : Fin 512, v (ix2 i (0 : Fin 1)) := by
  obtain ⟨p, q, rfl⟩ : ∃ (p : Fin 1) (q : Fin 1), y = ix2 p q := ⟨y 0, y 1, eq_ix2 y⟩
  refine (shapeCast_a_1a_apply _ _ p q).trans ?_
  refine (Ideal.multiReduction_add_single v _ reduces_S512x1_S1 _ _ _).trans ?_
  refine Finset.sum_congr rfl fun k _ => congrArg v ?_
  funext a
  match a with
  | ⟨0, _⟩ => exact Fin.ext rfl
  | ⟨1, _⟩ => exact Fin.ext (by have := q.isLt; show q.val = 0; omega)

/-! ## The one-hot mask -/

/-- The comparison bit of two words, widened and read as a float: 1 where they are equal, else 0. -/
theorem mask_word (a t : BitVec 32) :
    (FloatOps.sitofp (F := Ideal) .f32 ((IntOp.cmpi .eq a t).setWidth 32) : EReal) = if a = t then 1 else 0 := by
  show (((((BitVec.ofBool (a == t)).setWidth 32).toInt : ℤ) : ℝ) : EReal) = _
  have e1 : ((BitVec.ofBool true).setWidth 32).toInt = 1 := by decide
  have e0 : ((BitVec.ofBool false).setWidth 32).toInt = 0 := by decide
  by_cases h : a = t
  · rw [beq_iff_eq.mpr h, if_pos h, e1, Int.cast_one, EReal.coe_one]
  · rw [beq_eq_false_iff_ne.mpr h, if_neg h, e0, Int.cast_zero, EReal.coe_zero]

/-- The mask at `(i, j)`: the one-hot mask of row `i`'s class word at column `j`. -/
theorem mask_apply (v5 : IVec S512x1 32) (i : Fin 512) (j : Fin 1024) :
    sitofp (F := Ideal) .f32 (extui 32 (cmpi .eq (iota .tc S512x1024 32 [1] iota_S512x1024_d1_w32)
        (broadcastTo S512x1024 v5 broadcasts_S512x1_S512x1024)) natLt_1_32) (ix2 i j)
      = Cert.Focal.hot (v5 (ix2 i (0 : Fin 1))) j := by
  show FloatOps.sitofp (F := Ideal) .f32 ((IntOp.cmpi .eq (iota .tc S512x1024 32 [1] iota_S512x1024_d1_w32 (ix2 i j))
        (broadcastTo S512x1024 v5 broadcasts_S512x1_S512x1024 (ix2 i j))).setWidth 32) = _
  have h1 : iota .tc S512x1024 32 [1] iota_S512x1024_d1_w32 (ix2 i j) = BitVec.ofNat 32 j.val :=
    iota_single_apply .tc S512x1024 32 1 _ (ix2 i j)
  have h2 : broadcastTo S512x1024 v5 broadcasts_S512x1_S512x1024 (ix2 i j) = v5 (ix2 i (0 : Fin 1)) :=
    broadcastTo_a1_ab_apply v5 _ i j
  rw [h1, h2]
  exact mask_word _ _

/-! ## The block payload -/

/-- The last pointwise steps of a row: from the masked shifted logit, the log-sum and the picked weight to the row's loss. -/
theorem row_tail (v21 v13 v29 : FVec Ideal S512x1 .f32) (k : S512x1.Idx)
    (x : Fin 1024 → EReal) (t : BitVec 32) (w : Fin 1024 → EReal)
    (h21 : v21 k = ∑ j : Fin 1024, Cert.Focal.shift x j * Cert.Focal.hot t j)
    (h13 : v13 k = Cert.Focal.lse x)
    (h29 : v29 k = ∑ j : Fin 1024, Cert.Focal.hot t j * w j) :
    subf (broadcast S512x1 (Scalar.ofBits (F := Ideal) .f32 0x00000000#32))
        (mulf (mulf (mulf
          (subf (broadcast S512x1 (Scalar.ofBits (F := Ideal) .f32 0x3F800000#32)) (exp (subf v21 v13)))
          (subf (broadcast S512x1 (Scalar.ofBits (F := Ideal) .f32 0x3F800000#32)) (exp (subf v21 v13))))
          (subf v21 v13)) v29) k
      = Cert.Focal.rowK x t w := by
  show (Ideal.ofBits .f32 0x00000000#32 : EReal)
      - (((((Ideal.ofBits .f32 0x3F800000#32 : EReal) - Ideal.exp (v21 k - v13 k))
            * ((Ideal.ofBits .f32 0x3F800000#32 : EReal) - Ideal.exp (v21 k - v13 k))) * (v21 k - v13 k)) * v29 k) = _
  rw [h21, h13, h29, Ideal.ofBits_zero_f32, Cert.Focal.ofBits_one] <;> rfl

/-- The block payload at the accumulator's one index: the sum over the block's rows of the row losses. -/
theorem pay4_eq (x0 : Vec Ideal S512x1024 .f32) (x1 : Vec Ideal S512x1 .i32) (x2 : Vec Ideal S1x1024 .f32) (y : S1x1.Idx) :
    k0_pay4 (F := Ideal) x0 x1 x2 y
      = ∑ i : Fin 512, Cert.Focal.rowK (fun j : Fin 1024 => x0 (ix2 i j)) (x1 (ix2 i (0 : Fin 1))) (fun j : Fin 1024 => x2 (ix2 (0 : Fin 1) j)) := by
  unfold k0_pay4
  refine (rows_sum _ y).trans ?_
  refine Finset.sum_congr rfl fun i _ => ?_
  refine row_tail _ _ _ _ _ _ _ ?_ ?_ ?_
  · rw [col_sum]
    refine Finset.sum_congr rfl fun j _ => ?_
    rw [mulf_apply, subf_apply, col_max, mask_apply, shapeCast_self] <;> rfl
  · rw [log_apply, col_sum]
    refine congrArg Ideal.log (Finset.sum_congr rfl fun j _ => ?_)
    rw [exp_apply, subf_apply, col_max] <;> rfl
  · rw [col_sum]
    refine Finset.sum_congr rfl fun j _ => ?_
    rw [mulf_apply, mask_apply, broadcastTo_1b_ab_apply, shapeCast_self, shapeCast_self] <;> rfl
/-- The accumulator payload adds the block's sum to the accumulator it read. -/
theorem pay1_eq (v38 : FVec Ideal S1x1 .f32) (v39 : Vec Ideal S1x1 .f32) (y : S1x1.Idx) :
    k0_pay1 (F := Ideal) v38 v39 y = v39 y + v38 y := by
  show shapeCast S1x1 (addf (F := Ideal) (φ := .f32) v39 v38) shapeCasts_S1x1_S1x1 y = v39 y + v38 y
  rw [shapeCast_self]
  rfl

/-- The reset payload is zero. -/
theorem pay3_eq (y : S1x1.Idx) : k0_pay3 (F := Ideal) y = (0 : EReal) := by
  show shapeCast S1x1 (broadcast S1x1 (Scalar.ofBits (F := Ideal) .f32 0x00000000#32)) shapeCasts_S1x1_S1x1 y = 0
  rw [shapeCast_self]
  exact Ideal.ofBits_zero_f32

/-- The output payload repeats the 1×1 accumulator over the 8×128 block. -/
theorem pay2_eq (v47 : Vec Ideal S1x1 .f32) (y : S8x128.Idx) :
    k0_pay2 (F := Ideal) v47 y = v47 (ix2 (0 : Fin 1) (0 : Fin 1)) := by
  show broadcastTo S8x128 (shapeCast S1x1 v47 shapeCasts_S1x1_S1x1) broadcasts_S1x1_S8x128 y = _
  rw [shapeCast_self]
  refine broadcastTo_apply v47 _ y (ix2 (0 : Fin 1) (0 : Fin 1)) fun ax => ?_
  match ax with
  | ⟨0, _⟩ => rfl
  | ⟨1, _⟩ => rfl

end Cert.KernelIdeal.Payload

end
-- ==== Proof.KBlocks.lean ====
/-
  What the kernel's three input windows hold at grid point t (t = 64·core + step, 128 points):
    window 0: rows 512·t … 512·t + 511 of the logits;
    window 1: the same rows of the class words (the host reshapes the vector of words into a column);
    window 2: the class weights, the same 1×1024 row at every point (the host reshapes the weight vector into a row).
-/
import proofs.«415318_j29231547417214_2_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

open Idealize.ShloMosaic Idealize.ShloMosaic.TcCoe Idealize.SL.Sem Idealize.ShloMosaic.ValueIdx

namespace Cert.KernelIdeal.Blocks

open Cert.KernelIdeal Cert.KernelIdeal.Gen

variable (m : (ℓ : Loc nD τ sig) → Buf (Elt Ideal) ℓ)

/-- The number of grid points as a number. -/
theorem N128 : cfg0.N = 128 := N_0

/-- Row `i` of point `t`'s block is row `512·t + i` of the batch. -/
theorem row_lt (t : Fin cfg0.N) (i : Fin 512) : 512 * t.val + i.val < 65536 := by
  have h1 : t.val < cfg0.N := t.isLt
  have h2 : cfg0.N = 128 := N128
  have h3 := i.isLt
  omega

/-- The logits as the region finds them. -/
abbrev xs (c : Dev nD) : S65536x1024.Idx → EReal := m ((c : Thread nD τ).loc main_arg0)
/-- The class words as the region finds them. -/
abbrev ts (c : Dev nD) : S65536.Idx → BitVec 32 := m ((c : Thread nD τ).loc main_arg1)
/-- The class weights the host computed before the region (kept as the valuation's entry, never unfolded here). -/
abbrev ws (c : Dev nD) : S1024.Idx → EReal := V m c main_v13

/-- Where windows 0 and 1 sit at point t: block row t, block column 0. -/
theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
/-- Window 2 sits at block (0, 0) at every point. -/
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

/-- Window 0 at point t, row i, column j: the logit of batch row 512·t + i at column j. -/
theorem blk0 (c : Dev nD) (t : Fin cfg0.N) (i : Fin 512) (j : Fin 1024) :
    (iblk m c 0 t : Vec Ideal S512x1024 .f32) (ix2 i j) = xs m c (ix2 ⟨512 * t.val + i.val, row_lt t i⟩ j) := by
  have hi := idx0 t
  unfold iblk
  rw [View.read_apply]
  show V m c main_arg0 (((cfg0.win 0).blk t).view.emb (ix2 i j)) = _
  rw [V_main_arg0]
  refine congrArg _ (funext fun a => Fin.ext ?_)
  match a with
  | ⟨0, _⟩ => show win0_0.index t 0 * 512 + 1 * i.val = 512 * t.val + i.val; rw [hi.1]; omega
  | ⟨1, _⟩ => show win0_0.index t 1 * 1024 + 1 * j.val = j.val; rw [hi.2]; omega

/-- The column of class words the region finds: the vector of words, reshaped. -/
theorem V_v15 (c : Dev nD) :
    (V m c main_v15 : S65536x1.Idx → BitVec 32) = shapeCast S65536x1 (ts m c) Facts₀.shapeCasts_S65536_S65536x1 := by
  show StableHlo.after hostOps0 (fun b => m (c, b)) (Proc.devRef .tc main_v15) = _
  after_results
  rfl

/-- Window 1 at point t, row i: the class word of batch row 512·t + i. -/
theorem blk1 (c : Dev nD) (t : Fin cfg0.N) (i : Fin 512) :
    (iblk m c 1 t : Vec Ideal S512x1 .i32) (ix2 i (0 : Fin 1)) = ts m c (ix1 ⟨512 * t.val + i.val, row_lt t i⟩) := by
  have hi := idx1 t
  unfold iblk
  rw [View.read_apply]
  show V m c main_v15 (((cfg0.win 1).blk t).view.emb (ix2 i (0 : Fin 1))) = _
  rw [V_v15]
  refine shapeCast_apply _ _ _ (ix1 ⟨512 * t.val + i.val, row_lt t i⟩) ?_
  rw [Shape.rowMajor_val_two, Shape.rowMajor_val_one]
  show 512 * t.val + i.val = (win0_1.index t 0 * 512 + 1 * i.val) * 1 + (win0_1.index t 1 * 1 + 1 * 0)
  rw [hi.1, hi.2]; omega

/-- The row of class weights the region finds: the weight vector, reshaped. -/
theorem V_v14 (c : Dev nD) :
    (V m c main_v14 : S1x1024.Idx → EReal) = shapeCast S1x1024 (ws m c) Facts₀.shapeCasts_S1024_S1x1024 := by
  show StableHlo.after hostOps0 (fun b => m (c, b)) (Proc.devRef .tc main_v14)
    = shapeCast S1x1024 (StableHlo.after hostOps0 (fun b => m (c, b)) (Proc.devRef .tc main_v13)) _
  simp only [StableHlo.after_cons, StableHlo.after_nil]
  repeat (first
    | rw [StableHlo.reshape_result]
    | (rw [StableHlo.reshape_result_ne]; rotate_left; decide))
  rfl

/-- Window 2 at any point, column j: the weight of class j. -/
theorem blk2 (c : Dev nD) (t : Fin cfg0.N) (j : Fin 1024) :
    (iblk m c 2 t : Vec Ideal S1x1024 .f32) (ix2 (0 : Fin 1) j) = ws m c (ix1 j) := by
  have hi := idx2 t
  unfold iblk
  rw [View.read_apply]
  show V m c main_v14 (((cfg0.win 2).blk t).view.emb (ix2 (0 : Fin 1) j)) = _
  rw [V_v14]
  refine shapeCast_apply _ _ _ (ix1 j) ?_
  rw [Shape.rowMajor_val_two, Shape.rowMajor_val_one]
  show j.val = (win0_2.index t 0 * 1 + 1 * 0) * 1024 + (win0_2.index t 1 * 1024 + 1 * j.val)
  rw [hi.1, hi.2]; omega

/-- The class weights as the host operations before the region compute them from the class words: the histogram of
    the (wrapped) words by a scatter-add of ones into zeros, its minimum divided by each count, plus the constant. -/
theorem ws_eq (c : Dev nD) :
    ws m c = addf (F := Ideal) (Host.divf (broadcastInDim S1024 ![] Facts₀.bcast_S_S1024
        (Host.reduce FloatOps.minimumf
          (Host.scatterAdd scatter_S1024_S65536x1_S65536_n_0_0_1 (broadcastInDim S1024 ![] Facts₀.bcast_S_S1024 (constant S_ .f32 0x00000000#32))
            (broadcastInDim S65536x1 ![0] Facts₀.bcast_S65536_S65536x1_0 (select (cmpi .slt (ts m c) (broadcastInDim S65536 ![] Facts₀.bcast_S_S65536 (constantI S_ 32 0#32))) (addi (ts m c) (broadcastInDim S65536 ![] Facts₀.bcast_S_S65536 (constantI S_ 32 1024#32))) (ts m c)))
            (broadcastInDim S65536 ![] Facts₀.bcast_S_S65536 (constant S_ .f32 0x3F800000#32)))
          (constant S_ .f32 0x7F800000#32) Facts₀.reducesTo_S1024_S_d0 Facts₀.h_S_))
        (Host.scatterAdd scatter_S1024_S65536x1_S65536_n_0_0_1 (broadcastInDim S1024 ![] Facts₀.bcast_S_S1024 (constant S_ .f32 0x00000000#32))
            (broadcastInDim S65536x1 ![0] Facts₀.bcast_S65536_S65536x1_0 (select (cmpi .slt (ts m c) (broadcastInDim S65536 ![] Facts₀.bcast_S_S65536 (constantI S_ 32 0#32))) (addi (ts m c) (broadcastInDim S65536 ![] Facts₀.bcast_S_S65536 (constantI S_ 32 1024#32))) (ts m c)))
            (broadcastInDim S65536 ![] Facts₀.bcast_S_S65536 (constant S_ .f32 0x3F800000#32))))
      (broadcastInDim S1024 ![] Facts₀.bcast_S_S1024 (constant S_ .f32 0x3727C5AC#32)) := by
  show StableHlo.after hostOps0 (fun b => m (c, b)) (Proc.devRef .tc main_v13) = _
  after_results

end Cert.KernelIdeal.Blocks

end
-- ==== Proof.KInvariant.lean ====
/-
  The carried accumulator, point by point.  Writing K r for the loss of batch row r, after grid point n
  (core n / 64, step n % 64) the 1×1 accumulator holds the sum of K over the rows the core has met so far,
      Σ K r  for  32768·(n / 64) ≤ r < 512·(n + 1),
  and at a core's last step the 8×128 output block holds that sum at every entry.  By induction on the point:
  the first step of a core stores zero and adds its block's sum, every later step adds its block's sum.
-/
import proofs.«415318_j29231547417214_2_alg».proof.Proof.KPieces
import proofs.«415318_j29231547417214_2_alg».proof.Proof.KPayload
import proofs.«415318_j29231547417214_2_alg».proof.Proof.KBlocks
import proofs.«415318_j29231547417214_2_alg».proof.Proof.Spec

set_option maxRecDepth 16384

noncomputable section

open Idealize.ShloMosaic Idealize.ShloMosaic.TcCoe Idealize.SL.Sem Idealize.ShloMosaic.ValueIdx

namespace Cert.KernelIdeal.Invariant

open Cert.KernelIdeal Cert.KernelIdeal.Gen Cert.KernelIdeal.Blocks

variable (m : (ℓ : Loc nD τ sig) → Buf (Elt Ideal) ℓ)

/-- The loss of batch row `r` (zero past the batch): the kernel's row formula of the row's logits, its class word
    and the class weights. -/
def Kn (c : Dev nD) (r : ℕ) : EReal :=
  if h : r < 65536 then
    Cert.Focal.rowK (fun j : Fin 1024 => xs m c (ix2 ⟨r, h⟩ j)) (ts m c (ix1 ⟨r, h⟩)) (fun j : Fin 1024 => ws m c (ix1 j))
  else 0

/-- Row `i` of point `t`'s block is batch row `512·t + i`: the kernel's row formula of the block's row is that
    row's loss. -/
theorem row_eq (c : Dev nD) (t : Fin cfg0.N) (i : Fin 512) :
    Cert.Focal.rowK (fun j : Fin 1024 => (iblk m c 0 t : Vec Ideal S512x1024 .f32) (ix2 i j))
        ((iblk m c 1 t : Vec Ideal S512x1 .i32) (ix2 i (0 : Fin 1)))
        (fun j : Fin 1024 => (iblk m c 2 t : Vec Ideal S1x1024 .f32) (ix2 (0 : Fin 1) j))
      = Kn m c (512 * t.val + i.val) := by
  unfold Kn
  rw [dif_pos (row_lt t i)]
  have e0 : (fun j : Fin 1024 => (iblk m c 0 t : Vec Ideal S512x1024 .f32) (ix2 i j))
      = fun j : Fin 1024 => xs m c (ix2 ⟨512 * t.val + i.val, row_lt t i⟩ j) := funext fun j => blk0 m c t i j
  have e2 : (fun j : Fin 1024 => (iblk m c 2 t : Vec Ideal S1x1024 .f32) (ix2 (0 : Fin 1) j))
      = fun j : Fin 1024 => ws m c (ix1 j) := funext fun j => blk2 m c t j
  rw [e0, e2, blk1 m c t i]

/-- The block payload at point t is the sum of the row losses over the block's rows. -/
theorem block_sum (c : Dev nD) (t : Fin cfg0.N) (y : S1x1.Idx) :
    k0_pay4 (F := Ideal) (iblk m c 0 t) (iblk m c 1 t) (iblk m c 2 t) y
      = ∑ r ∈ Finset.Ico (512 * t.val) (512 * t.val + 512), Kn m c r := by
  refine (Cert.KernelIdeal.Payload.pay4_eq (iblk m c 0 t) (iblk m c 1 t) (iblk m c 2 t) y).trans ?_
  rw [← Cert.Focal.sum_block (Kn m c) t.val]
  exact Finset.sum_congr rfl fun i _ => row_eq m c t i

/-- THE INVARIANT: the accumulator after point n. -/
theorem scratch_eq (c : Dev nD) : ∀ (n : ℕ) (h : n < cfg0.N) (y : S1x1.Idx),
    (outsAt0 m c n h).2 y = ∑ r ∈ Finset.Ico (n / 64 * 32768) ((n + 1) * 512), Kn m c r := by
  intro n
  induction n using Nat.strong_induction_on with
  | _ n ih =>
    intro h y
    have hN : n < 128 := lt_of_lt_of_eq h N_0
    by_cases h0 : n % 64 = 0
    · -- the first step of a core: zero, plus the block's sum
      have h1 : ¬ n % 64 = 63 := by omega
      rw [outsAt0_A m c ⟨n, h⟩ h0 h1]
      dsimp only
      rw [Cert.KernelIdeal.Pieces.scr_A (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) ((hcond0_0 ⟨n, h⟩).mpr h0) (fun hh => h1 ((hcond0_1 ⟨n, h⟩).mp hh)) (iblk m c 0 ⟨n, h⟩) (iblk m c 1 ⟨n, h⟩) (iblk m c 2 ⟨n, h⟩),
        Cert.KernelIdeal.Payload.pay1_eq, Cert.KernelIdeal.Payload.pay3_eq, zero_add, block_sum m c ⟨n, h⟩ y]
      have e1 : 512 * n = n / 64 * 32768 := by omega
      have e2 : 512 * n + 512 = (n + 1) * 512 := by omega
      show ∑ r ∈ Finset.Ico (512 * n) (512 * n + 512), Kn m c r = _
      rw [← e1, ← e2]
    · have hpos : n - 1 < n := by omega
      have hprev : n - 1 < cfg0.N := lt_of_le_of_lt (Nat.sub_le _ _) h
      have e0 : (n - 1) / 64 * 32768 = n / 64 * 32768 := by omega
      have e1 : (n - 1 + 1) * 512 = 512 * n := by omega
      have e2 : 512 * n + 512 = (n + 1) * 512 := by omega
      have hle1 : n / 64 * 32768 ≤ 512 * n := by omega
      have hle2 : 512 * n ≤ 512 * n + 512 := by omega
      by_cases h1 : n % 64 = 63
      · -- the last step of a core
        rw [outsAt0_C m c ⟨n, h⟩ h0 h1]
        dsimp only
        rw [Cert.KernelIdeal.Pieces.scr_C (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) (fun hh => h0 ((hcond0_0 ⟨n, h⟩).mp hh)) ((hcond0_1 ⟨n, h⟩).mpr h1) (iblk m c 0 ⟨n, h⟩) (iblk m c 1 ⟨n, h⟩) (iblk m c 2 ⟨n, h⟩) (outsAt0 m c (n - 1) hprev).2,
          Cert.KernelIdeal.Payload.pay1_eq, block_sum m c ⟨n, h⟩ y, ih (n - 1) hpos hprev y]
        show ∑ r ∈ Finset.Ico ((n - 1) / 64 * 32768) ((n - 1 + 1) * 512), Kn m c r
            + ∑ r ∈ Finset.Ico (512 * n) (512 * n + 512), Kn m c r = _
        rw [e0, e1, ← e2]
        exact Finset.sum_Ico_consecutive _ hle1 hle2
      · -- a middle step
        rw [outsAt0_B m c ⟨n, h⟩ h0 h1]
        dsimp only
        rw [Cert.KernelIdeal.Pieces.scr_B (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) (fun hh => h0 ((hcond0_0 ⟨n, h⟩).mp hh)) (fun hh => h1 ((hcond0_1 ⟨n, h⟩).mp hh)) (iblk m c 0 ⟨n, h⟩) (iblk m c 1 ⟨n, h⟩) (iblk m c 2 ⟨n, h⟩) (outsAt0 m c (n - 1) hprev).2,
          Cert.KernelIdeal.Payload.pay1_eq, block_sum m c ⟨n, h⟩ y, ih (n - 1) hpos hprev y]
        show ∑ r ∈ Finset.Ico ((n - 1) / 64 * 32768) ((n - 1 + 1) * 512), Kn m c r
            + ∑ r ∈ Finset.Ico (512 * n) (512 * n + 512), Kn m c r = _
        rw [e0, e1, ← e2]
        exact Finset.sum_Ico_consecutive _ hle1 hle2

/-- At a core's last step the output block holds the core's whole sum at every entry: it is the accumulator the
    step has just stored, repeated. -/
theorem out_eq (c : Dev nD) (n : ℕ) (h : n < cfg0.N) (h63 : n % 64 = 63) (y : S8x128.Idx) :
    (outsAt0 m c n h).1 y = ∑ r ∈ Finset.Ico (n / 64 * 32768) ((n + 1) * 512), Kn m c r := by
  have h0 : ¬ n % 64 = 0 := by omega
  have hprev : n - 1 < cfg0.N := lt_of_le_of_lt (Nat.sub_le _ _) h
  have e : (outsAt0 m c n h).1 = k0_pay2 (F := Ideal) (outsAt0 m c n h).2 := by
    rw [outsAt0_C m c ⟨n, h⟩ h0 h63]
    dsimp only
    rw [Cert.KernelIdeal.Pieces.out_C (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) (fun hh => h0 ((hcond0_0 ⟨n, h⟩).mp hh)) ((hcond0_1 ⟨n, h⟩).mpr h63) (iblk m c 0 ⟨n, h⟩) (iblk m c 1 ⟨n, h⟩) (iblk m c 2 ⟨n, h⟩) (outsAt0 m c (n - 1) hprev).2,
      Cert.KernelIdeal.Pieces.scr_C (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) (fun hh => h0 ((hcond0_0 ⟨n, h⟩).mp hh)) ((hcond0_1 ⟨n, h⟩).mpr h63) (iblk m c 0 ⟨n, h⟩) (iblk m c 1 ⟨n, h⟩) (iblk m c 2 ⟨n, h⟩) (outsAt0 m c (n - 1) hprev).2]
  rw [e, Cert.KernelIdeal.Payload.pay2_eq, scratch_eq m c n h]

end Cert.KernelIdeal.Invariant

end
-- ==== Proof.KValue.lean ====
/-
  The kernel program's result.  The 16×128 array the region writes holds core 0's sum on rows 0–7 (written back
  at point 63) and core 1's sum on rows 8–15 (written back at point 127); the host then adds entries (0, 0) and
  (8, 0) and divides by 65536.
-/
import proofs.«415318_j29231547417214_2_alg».proof.Proof.KInvariant
import Idealize.ShloMosaic.Lib.StableHlo.Run
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.KernelIdeal.Blocks Cert.KernelIdeal.Invariant

variable (m : (ℓ : Loc nD τ sig) → Buf (Elt Ideal) ℓ) (ρ : Dev nD → PrngReg)

/-- Core 0's sum: the first half of the batch. -/
def S0 (c : Dev nD) : EReal := ∑ r ∈ Finset.Ico 0 32768, Kn m c r
/-- Core 1's sum: the second half. -/
def S1 (c : Dev nD) : EReal := ∑ r ∈ Finset.Ico 32768 65536, Kn m c r

/-- The 16×128 array after the region: core 0's sum on rows 0–7, core 1's on rows 8–15. -/
def Gout (c : Dev nD) : Buf (Elt Ideal) ((c : Thread nD τ).loc main_v16) :=
  fun i => if (i 0).val < 8 then S0 m c else S1 m c

/-- The output window's row-block index at point t is the core, t / 64. -/
theorem index3_0 : ∀ t : Fin cfg0.N, (cfg0.win 3).index t 0 = t.val / 64 :=
  (by decide +kernel : ∀ t : Fin grid0.N, win0_3.index t 0 = t.val / 64)
/-- Its lane-block index is 0 at every point. -/
theorem index3_1 : ∀ t : Fin cfg0.N, (cfg0.win 3).index t 1 = 0 :=
  (by decide +kernel : ∀ t : Fin grid0.N, win0_3.index t 1 = 0)

/-- What a writing-back point writes is its block of `Gout`. -/
theorem flushed_eq (c : Dev nD) (t : Fin cfg0.N) (hf : (cfg0.win 3).flush t = true) :
    (dats m 0 c).flushed 3 t = ((cfg0.win 3).blk t).view.read (Elt Ideal) (Gout m c) := by
  have hN : cfg0.N = 128 := N_0
  have h63 : t.val % 64 = 63 := (flush0_3 t).mp hf
  have hlt : t.val < 128 := lt_of_lt_of_eq t.isLt hN
  show (cfg0.win 3).cut (grid0.coords t) ((dats m 0 c).after 3 t) = _
  rw [after0_3]
  funext y
  -- entry y of the block is entry (8·(t / 64) + y₀, y₁) of the array
  show (outsAt0 m c t.val t.isLt).1 ((cfg0.win 3).xinj (grid0.coords t) y) = Gout m c (((cfg0.win 3).blk t).view.emb y)
  rw [out_eq m c t.val t.isLt h63]
  have hrow : ((((cfg0.win 3).blk t).view.emb y) 0).val = t.val / 64 * 8 + (y 0).val := by
    show win0_3.index t 0 * 8 + 1 * (y 0).val = _
    rw [show win0_3.index t 0 = t.val / 64 from index3_0 t]; omega
  have hy : (y 0).val < 8 := (y 0).isLt
  unfold Gout
  -- the two writing-back points: 63 (rows 0–7, rows 0 … 32767 of the batch) and 127 (rows 8–15, the other half)
  rcases (by omega : t.val = 63 ∨ t.val = 127) with h | h
  · rw [if_pos (by rw [hrow, h]; omega), h]; rfl
  · rw [if_neg (by rw [hrow, h]; omega), h]; rfl

/-- Point p's block is rows 8·(p / 64) … 8·(p / 64) + 7 of the array, all lanes. -/
theorem mem_blk (c : Dev nD) (p : ℕ) (hp : p < cfg0.N) (i : ((cfg0.win 3).arr.view.loc (c.tc : Thread nD τ)).2.ty.Idx)
    (hlo : p / 64 * 8 ≤ (i 0).val) (hhi : (i 0).val < p / 64 * 8 + 8) :
    i ∈ ((cfg0.win 3).blk ⟨p, hp⟩).view.set := by
  have h1 : (i 1 : Nat) < 128 := (i 1).isLt
  show i ∈ ((View.whole main_v16).slice (win0_3.rect ⟨p, hp⟩)).set
  rw [View.set_slice_whole, Rect.mem_set_unit]
  intro a
  match a with
  | ⟨0, _⟩ =>
    show win0_3.index ⟨p, hp⟩ 0 * 8 ≤ (i 0 : Nat) ∧ (i 0 : Nat) < win0_3.index ⟨p, hp⟩ 0 * 8 + 8
    rw [show win0_3.index ⟨p, hp⟩ 0 = p / 64 from index3_0 ⟨p, hp⟩]; exact ⟨hlo, hhi⟩
  | ⟨1, _⟩ =>
    show win0_3.index ⟨p, hp⟩ 1 * 128 ≤ (i 1 : Nat) ∧ (i 1 : Nat) < win0_3.index ⟨p, hp⟩ 1 * 128 + 128
    rw [show win0_3.index ⟨p, hp⟩ 1 = 0 from index3_1 ⟨p, hp⟩]; omega

/-- The two written-back blocks cover the array, so it ends at `Gout`. -/
theorem final (c : Dev nD) : (dats m 0 c).arrAt 3 cfg0.N = Gout m c :=
  (dats m 0 c).arrAt_eq_of_cover 3 (Gout m c) (flushed_eq m c) fun i => by
    have hN : cfg0.N = 128 := N_0
    have h0 : (i 0 : Nat) < 16 := (i 0).isLt
    -- a row below 8 lies in point 63's block, any other in point 127's
    by_cases h : (i 0).val < 8
    · have ht : (63 : ℕ) < cfg0.N := by rw [hN]; omega
      exact ⟨⟨63, ht⟩, (flush0_3 _).mpr (show (63 : ℕ) % 64 = 63 from by decide), mem_blk c 63 ht i (by omega) (by omega)⟩
    · have ht : (127 : ℕ) < cfg0.N := by rw [hN]; omega
      exact ⟨⟨127, ht⟩, (flush0_3 _).mpr (show (127 : ℕ) % 64 = 63 from by decide), mem_blk c 127 ht i (by omega) (by omega)⟩

/-- The host operations after the region, from any contents W holding G in the 16×128 array: the two 1×1 slices at
    (0, 0) and (8, 0), each cast to a scalar, added, the sum divided by the constant. -/
theorem tail_eq (W : Valuation τ sig (Elt Ideal)) (G : S16x128.Idx → EReal)
    (hW : (W (Proc.devRef .tc main_v16) : S16x128.Idx → EReal) = G) :
    StableHlo.after (hostOps1 (F := Ideal)) W (Proc.devRef .tc main_v22)
      = Host.divf (F := Ideal)
          (addf (shapeCast S_ (extractStridedSlice S1x1 ![0, 0] G slices_S16x128_S1x1_0_0) shapeCasts_S1x1_S_)
                (shapeCast S_ (extractStridedSlice S1x1 ![8, 0] G slices_S16x128_S1x1_8_0) shapeCasts_S1x1_S_))
          (constant (F := Ideal) S_ .f32 0x47800000#32) := by
  subst hW
  after_results
  rfl

/-- A position in a shape of one element is position 0. -/
theorem val_fin_one (n : ℕ) (hn : n = 1) (a : Fin n) : a.val = 0 := by subst hn; omega

/-- The cast of a 1×1 array to a scalar reads its one entry. -/
theorem cast11 {α : Type} (x : S1x1.Idx → α) (h : S1x1.ShapeCasts S_) (j : S_.Idx) :
    shapeCast S_ x h j = x (ix2 (0 : Fin 1) (0 : Fin 1)) :=
  shapeCast_apply x h j (ix2 (0 : Fin 1) (0 : Fin 1)) ((val_fin_one _ (by decide) _).trans (val_fin_one _ (by decide) _).symm)

/-- The slice [0:1, 0:1] reads entry (0, 0). -/
theorem slice00 {α : Type} (x : S16x128.Idx → α) (h : S16x128.Slices ![0, 0] S1x1) :
    extractStridedSlice S1x1 ![0, 0] x h (ix2 (0 : Fin 1) (0 : Fin 1)) = x (ix2 (0 : Fin 16) (0 : Fin 128)) :=
  extractStridedSlice_apply _ x h _ _ fun a => match a with | ⟨0, _⟩ => rfl | ⟨1, _⟩ => rfl

/-- The slice [8:9, 0:1] reads entry (8, 0). -/
theorem slice80 {α : Type} (x : S16x128.Idx → α) (h : S16x128.Slices ![8, 0] S1x1) :
    extractStridedSlice S1x1 ![8, 0] x h (ix2 (0 : Fin 1) (0 : Fin 1)) = x (ix2 (⟨8, by omega⟩ : Fin 16) (0 : Fin 128)) :=
  extractStridedSlice_apply _ x h _ _ fun a => match a with | ⟨0, _⟩ => rfl | ⟨1, _⟩ => rfl

/-- So the host operations after the region leave (G (0, 0) + G (8, 0)) / 65536. -/
theorem tail_read (W : Valuation τ sig (Elt Ideal)) (G : S16x128.Idx → EReal)
    (hW : (W (Proc.devRef .tc main_v16) : S16x128.Idx → EReal) = G) :
    StableHlo.after (hostOps1 (F := Ideal)) W (Proc.devRef .tc main_v22)
      = fun _ => Ideal.div (G (ix2 (0 : Fin 16) (0 : Fin 128)) + G (ix2 (⟨8, by omega⟩ : Fin 16) (0 : Fin 128)))
          (Ideal.ofBits .f32 0x47800000#32) := by
  rw [tail_eq W G hW]
  funext j
  show Ideal.div
      (shapeCast S_ (extractStridedSlice S1x1 ![0, 0] G slices_S16x128_S1x1_0_0) shapeCasts_S1x1_S_ j
        + shapeCast S_ (extractStridedSlice S1x1 ![8, 0] G slices_S16x128_S1x1_8_0) shapeCasts_S1x1_S_ j)
      (Ideal.ofBits .f32 0x47800000#32) = _
  rw [cast11, cast11, slice00, slice80]

/-- The result buffer after the host operations that follow the region: row 0 holds core 0's sum, row 8 core 1's. -/
theorem tail_val (c : Dev nD) : Pipeline.afterTail₀ cfgs (dats m) 0 (V0 m) [hostOps1] c main_v22
    = fun _ => Ideal.div (S0 m c + S1 m c) (Ideal.ofBits .f32 0x47800000#32) := by
  unfold Pipeline.afterTail₀
  show StableHlo.after hostOps1 _ (Proc.devRef .tc main_v22) = _
  refine (tail_read _ (Gout m c) ((Pipeline.withArrays_arr spec0 launch0.win.arr_inj c _ _ 3).trans (final m c))).trans ?_
  funext j
  show Ideal.div ((if (0 : ℕ) < 8 then S0 m c else S1 m c) + (if (8 : ℕ) < 8 then S0 m c else S1 m c)) _ = _
  rw [if_pos (by omega), if_neg (by omega)]

/-- THE KERNEL PROGRAM'S RUN, READ: the result is (core 0's sum + core 1's sum) / 65536; the arguments are unchanged. -/
theorem run : θ_run defs (onTc (τ := τ) (main (F := Ideal))) ⟨m, fun _ => 0, ρ⟩ fun r => ∀ c : Dev nD,
      r.2.mem ((c.tc : Thread nD τ).loc main_v22)
        = (fun _ => Ideal.div (S0 m c + S1 m c) (Ideal.ofBits .f32 0x47800000#32))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v22 (Pipeline.mem_restRefs_of main_v22 (by decide) (by decide))).trans (tail_val m c),
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c)⟩)
    (run_main m ρ)

end Cert.KernelIdeal.KValue

end
-- ==== Proof.RefValue.lean ====
/-
  The reference program's result, read on the extended reals.  With every class word the number of a column
  (word r = the number of column cls r) the wrapped index is the word itself, each gather reads its operand at
  (r, cls r) resp. at cls r, and the result is
      (0 + Σ_r rowR (row r of the logits) (cls r) (class weights)) / 65536
  where the class weights are the reference's own host chain of the class words.
-/
import proofs.«415318_j29231547417214_2_alg».proof.Proof.RefRead
import proofs.«415318_j29231547417214_2_alg».proof.Proof.Spec
import Idealize.ShloMosaic.Lib.ValueIdx
import Idealize.ShloMosaic.Lib.ValueIdxRank1
import Idealize.ShloMosaic.Lib.ValueLayout
import Idealize.ShloMosaic.Lib.StableHlo.Predicate
import Idealize.ShloMosaic.PureOps.Ideal.Laws
import Idealize.ShloMosaic.PureOps.Reduce

set_option maxRecDepth 16384

noncomputable section

open Idealize.ShloMosaic Idealize.ShloMosaic.TcCoe Idealize.ShloMosaic.ValueIdx

namespace Cert.ReferenceIdeal.RefValue

open Cert.ReferenceIdeal Cert.ReferenceIdeal.ReadP

/-! ## Words: a small non-negative word passes the wrap and the clamp unchanged -/

/-- A word that is not negative read signed passes `select (w < 0) (w + n) w` unchanged. -/
theorem wrap_nonneg (w a : BitVec 32) (hw : w.toNat < 2 ^ 31) :
    Scalar.select (IntOp.cmpi .slt w 0#32) a w = w := by
  have h : ¬ IntOp.cmpi .slt w 0#32 = 1#1 := by
    rw [StableHlo.Predicate.slt_iff_toNat (a := w) (b := 0#32) hw (by decide)]
    exact Nat.not_lt_zero _
  rw [eq_zero_of_ne_one h]
  exact select_zero _ _

/-- The word of a number below 2³¹ is below 2³¹. -/
theorem small_word (n : Nat) (hn : n < 2 ^ 31) : (BitVec.ofNat 32 n).toNat < 2 ^ 31 := by
  rw [BitVec.toNat_ofNat]
  exact lt_of_le_of_lt (Nat.mod_le _ _) hn

/-- The word of a number below 2³¹, read signed, is the number. -/
theorem toNat_word (n : Nat) (hn : n < 2 ^ 31) : (BitVec.ofNat 32 n).toInt.toNat = n := by
  rw [StableHlo.Predicate.toInt_ofNat_small n hn]
  exact Int.toNat_natCast n

/-- The word of a position of an axis, read signed and clamped into the axis, is the position. -/
theorem clampFin {n : Nat} (w : BitVec 32) (k : Fin n) (hn : n ≤ 2 ^ 31) (hw : w = BitVec.ofNat 32 k.val)
    (h : min w.toInt.toNat (n - 1) < n) : (⟨min w.toInt.toNat (n - 1), h⟩ : Fin n) = k := by
  apply Fin.ext
  show min w.toInt.toNat (n - 1) = k.val
  rw [hw, toNat_word k.val (lt_of_lt_of_le k.isLt hn)]
  have := k.isLt
  omega

/-! ## One operation of the chain, read on the extended reals -/

section Stages

theorem rd_const {v c : EReal} {b : BitVec (FTy.f32).bits} (h : v = FloatOps.ofBits (F := Ideal) .f32 b)
    (hc : Ideal.ofBits .f32 b = c) : v = c :=
  h.trans ((Ideal.ofBits_def (φ := .f32) b).trans hc)

theorem rd_sub {v p q a b : EReal} (h : v = FloatOps.subf (F := Ideal) (φ := .f32) p q) (hp : p = a) (hq : q = b) :
    v = a - b := by
  subst hp hq; exact h.trans (Ideal.subf_def (φ := .f32) p q)

theorem rd_mul {v p q a b : EReal} (h : v = FloatOps.mulf (F := Ideal) (φ := .f32) p q) (hp : p = a) (hq : q = b) :
    v = a * b := by
  subst hp hq; exact h.trans (Ideal.mulf_def (φ := .f32) p q)

theorem rd_max {v p q a b : EReal} (h : v = FloatOps.maximumf (F := Ideal) (φ := .f32) p q) (hp : p = a) (hq : q = b) :
    v = max a b := by
  subst hp hq; exact h.trans (Ideal.maximumf_def (φ := .f32) p q)

theorem rd_pow {v p q a b : EReal} (h : v = FloatOps.hostPowf (F := Ideal) (φ := .f32) p q) (hp : p = a) (hq : q = b) :
    v = Ideal.pow a b := by
  subst hp hq; exact h.trans (Ideal.hostPowf_def (φ := .f32) p q)

theorem rd_div {v p q a b : EReal} (h : v = FloatOps.hostDivf (F := Ideal) (φ := .f32) p q) (hp : p = a) (hq : q = b) :
    v = Ideal.div a b := by
  subst hp hq; exact h.trans (Ideal.hostDivf_def (φ := .f32) p q)

theorem rd_neg {v p a : EReal} (h : v = FloatOps.hostNegf (F := Ideal) (φ := .f32) p) (hp : p = a) : v = -a := by
  subst hp; exact h.trans ((Ideal.hostNegf_def (φ := .f32) p).trans (Ideal.negf_def (φ := .f32) p))

theorem rd_exp {v p a : EReal} (h : v = FloatOps.hostUnary (F := Ideal) .exp (φ := .f32) p) (hp : p = a) :
    v = Ideal.exp a := by
  subst hp; exact h.trans (Ideal.hostUnary_exp_def (φ := .f32) p)

theorem rd_log {v p a : EReal} (h : v = FloatOps.hostUnary (F := Ideal) .log (φ := .f32) p) (hp : p = a) :
    v = Ideal.log a := by
  subst hp; exact h.trans (Ideal.hostUnary_log_def (φ := .f32) p)

end Stages

/-! ## The point gather -/

/-- The point gather over any element type: result position p reads the operand at the two words of row p of the
    table, each read signed and clamped into its axis. -/
theorem gather2_gen {α : Type} (x : S65536x1024.Idx → α) (idx : IVec S65536x2 32) (p : Fin 65536) :
    Host.gather gather_S65536x1024_S65536x2_S65536_n_01_n_n_01_1_11 x idx (ix1 p)
      = x (ix2 ⟨min (idx (ix2 p (0 : Fin 2))).toInt.toNat (65536 - 1), by omega⟩
              ⟨min (idx (ix2 p (1 : Fin 2))).toInt.toNat (1024 - 1), by omega⟩) := by
  unfold Host.gather
  congr 1
  funext a
  refine Fin.ext ?_
  have hb : ∀ a : Fin 2, a ∉ (gather_S65536x1024_S65536x2_S65536_n_01_n_n_01_1_11).operandBatchingDims :=
    fun a => List.not_mem_nil
  have hk : ∀ a : Fin 2, a ∉ (gather_S65536x1024_S65536x2_S65536_n_01_n_n_01_1_11).sKept := by
    intro a h
    have h1 := ((GatherDims.mem_sKept _ _).mp h).1
    apply h1
    show a ∈ [(0 : Fin 2), 1]
    match a with
    | ⟨0, _⟩ => exact List.mem_cons_self
    | ⟨1, _⟩ => exact List.mem_cons_of_mem _ List.mem_cons_self
  show (gather_S65536x1024_S65536x2_S65536_n_01_n_n_01_1_11).start (ix1 p) idx a
      + (gather_S65536x1024_S65536x2_S65536_n_01_n_n_01_1_11).batchCoord (ix1 p) a
      + (gather_S65536x1024_S65536x2_S65536_n_01_n_n_01_1_11).offCoord (ix1 p) a = _
  rw [GatherDims.batchCoord_eq_zero _ _ _ (hb a), GatherDims.offCoord_eq_zero _ _ _ (hk a)]
  simp only [Nat.add_zero]
  unfold GatherDims.start
  match a with
  | ⟨0, _⟩ =>
    have hm : (⟨0, by omega⟩ : Fin 2) ∈ (gather_S65536x1024_S65536x2_S65536_n_01_n_n_01_1_11).startIndexMap := by
      show (⟨0, by omega⟩ : Fin 2) ∈ [(0 : Fin 2), 1]
      exact List.mem_cons_self
    rw [dif_pos hm]
    have hsi : (gather_S65536x1024_S65536x2_S65536_n_01_n_n_01_1_11).siIdx (ix1 p)
        ⟨List.idxOf (⟨0, by omega⟩ : Fin 2) (gather_S65536x1024_S65536x2_S65536_n_01_n_n_01_1_11).startIndexMap,
          List.idxOf_lt_length_iff.2 hm⟩ = ix2 p (0 : Fin 2) := by
      funext b; refine Fin.ext ?_
      match b with
      | ⟨0, _⟩ => rfl
      | ⟨1, _⟩ => rfl
    rw [hsi]
    rfl
  | ⟨1, _⟩ =>
    have hm : (⟨1, by omega⟩ : Fin 2) ∈ (gather_S65536x1024_S65536x2_S65536_n_01_n_n_01_1_11).startIndexMap := by
      show (⟨1, by omega⟩ : Fin 2) ∈ [(0 : Fin 2), 1]
      exact List.mem_cons_of_mem _ List.mem_cons_self
    rw [dif_pos hm]
    have hsi : (gather_S65536x1024_S65536x2_S65536_n_01_n_n_01_1_11).siIdx (ix1 p)
        ⟨List.idxOf (⟨1, by omega⟩ : Fin 2) (gather_S65536x1024_S65536x2_S65536_n_01_n_n_01_1_11).startIndexMap,
          List.idxOf_lt_length_iff.2 hm⟩ = ix2 p (1 : Fin 2) := by
      funext b; refine Fin.ext ?_
      match b with
      | ⟨0, _⟩ => rfl
      | ⟨1, _⟩ => rfl
    rw [hsi]
    rfl

/-- THE POINT GATHER `a[rows, cols]` read at a position: with start indices the [65536 × 2] table of (row, column)
    words, result position p reads the operand at the two words of row p, each read signed and clamped into its axis. -/
theorem gather2_apply (x : S65536x1024.Idx → EReal) (idx : IVec S65536x2 32) (p : Fin 65536) :
    Host.gather gather_S65536x1024_S65536x2_S65536_n_01_n_n_01_1_11 x idx (ix1 p)
      = x (ix2 ⟨min (idx (ix2 p (0 : Fin 2))).toInt.toNat (65536 - 1), by omega⟩
              ⟨min (idx (ix2 p (1 : Fin 2))).toInt.toNat (1024 - 1), by omega⟩) :=
  gather2_gen x idx p

/-! ## The index tables: row r holds the words of r and of the class of r -/

section Tables
variable (x1 : (⟨S65536, .i32⟩ : BufTy).Contents (Elt Ideal))

/-- The wrapped row number of row r is the word of r (first table). -/
theorem v21_at (r : Fin 65536) : val_main_v21 (F := Ideal) (ix1 r) = BitVec.ofNat 32 r.val := by
  have h0 : val_main_v17 (F := Ideal) (ix1 r) = 0#32 := val_main_v17_apply (F := Ideal) (ix1 r)
  show Scalar.select (IntOp.cmpi .slt (BitVec.ofNat 32 r.val) (val_main_v17 (F := Ideal) (ix1 r)))
      (val_main_v20 (F := Ideal) (ix1 r)) (BitVec.ofNat 32 r.val) = BitVec.ofNat 32 r.val
  rw [h0]
  exact wrap_nonneg _ _ (small_word r.val (by have := r.isLt; omega))

/-- The wrapped row number of row r is the word of r (second table). -/
theorem v35_at (r : Fin 65536) : val_main_v35 (F := Ideal) (ix1 r) = BitVec.ofNat 32 r.val := by
  have h0 : val_main_v31 (F := Ideal) (ix1 r) = 0#32 := val_main_v31_apply (F := Ideal) (ix1 r)
  show Scalar.select (IntOp.cmpi .slt (BitVec.ofNat 32 r.val) (val_main_v31 (F := Ideal) (ix1 r)))
      (val_main_v34 (F := Ideal) (ix1 r)) (BitVec.ofNat 32 r.val) = BitVec.ofNat 32 r.val
  rw [h0]
  exact wrap_nonneg _ _ (small_word r.val (by have := r.isLt; omega))

/-- A class word that is a small number passes its wrap unchanged (first table). -/
theorem v26_at (r : Fin 65536) (n : Nat) (hn : n < 2 ^ 31) (h : x1 (ix1 r) = BitVec.ofNat 32 n) :
    val_main_v26 (F := Ideal) x1 (ix1 r) = BitVec.ofNat 32 n := by
  have h0 : val_main_v22 (F := Ideal) (ix1 r) = 0#32 := val_main_v22_apply (F := Ideal) (ix1 r)
  show Scalar.select (IntOp.cmpi .slt (x1 (ix1 r)) (val_main_v22 (F := Ideal) (ix1 r)))
      (val_main_v25 (F := Ideal) x1 (ix1 r)) (x1 (ix1 r)) = BitVec.ofNat 32 n
  rw [h0, h]
  exact wrap_nonneg _ _ (small_word n hn)

/-- A class word that is a small number passes its wrap unchanged (second table). -/
theorem v40_at (r : Fin 65536) (n : Nat) (hn : n < 2 ^ 31) (h : x1 (ix1 r) = BitVec.ofNat 32 n) :
    val_main_v40 (F := Ideal) x1 (ix1 r) = BitVec.ofNat 32 n := by
  have h0 : val_main_v36 (F := Ideal) (ix1 r) = 0#32 := val_main_v36_apply (F := Ideal) (ix1 r)
  show Scalar.select (IntOp.cmpi .slt (x1 (ix1 r)) (val_main_v36 (F := Ideal) (ix1 r)))
      (val_main_v39 (F := Ideal) x1 (ix1 r)) (x1 (ix1 r)) = BitVec.ofNat 32 n
  rw [h0, h]
  exact wrap_nonneg _ _ (small_word n hn)

/-- A class word that is a small number passes its wrap unchanged (the weights' index). -/
theorem v55_at (r : Fin 65536) (n : Nat) (hn : n < 2 ^ 31) (h : x1 (ix1 r) = BitVec.ofNat 32 n) :
    val_main_v55 (F := Ideal) x1 (ix1 r) = BitVec.ofNat 32 n := by
  have h0 : val_main_v51 (F := Ideal) (ix1 r) = 0#32 := val_main_v51_apply (F := Ideal) (ix1 r)
  show Scalar.select (IntOp.cmpi .slt (x1 (ix1 r)) (val_main_v51 (F := Ideal) (ix1 r)))
      (val_main_v54 (F := Ideal) x1 (ix1 r)) (x1 (ix1 r)) = BitVec.ofNat 32 n
  rw [h0, h]
  exact wrap_nonneg _ _ (small_word n hn)

/-- Cell (r, 0) of a column sits over cell r of the vector it was broadcast from. -/
theorem col_over (g : S65536x1.Idx → S65536.Idx)
    (hg : ∀ i : S65536x1.Idx, ((g i) 0).val = (i 0).val) (r : Fin 65536) : g (ix2 r (0 : Fin 1)) = ix1 r := by
  funext a
  match a with
  | ⟨0, _⟩ => exact Fin.ext (hg (ix2 r (0 : Fin 1)))

theorem v27_at (r : Fin 65536) : val_main_v27 (F := Ideal) (ix2 r (0 : Fin 1)) = BitVec.ofNat 32 r.val :=
  (val_main_v27_apply (F := Ideal) (ix2 r (0 : Fin 1))).trans
    ((congrArg (val_main_v21 (F := Ideal)) (col_over idx_main_v27 (fun _ => rfl) r)).trans (v21_at r))

theorem v41_at (r : Fin 65536) : val_main_v41 (F := Ideal) (ix2 r (0 : Fin 1)) = BitVec.ofNat 32 r.val :=
  (val_main_v41_apply (F := Ideal) (ix2 r (0 : Fin 1))).trans
    ((congrArg (val_main_v35 (F := Ideal)) (col_over idx_main_v41 (fun _ => rfl) r)).trans (v35_at r))

theorem v28_at (r : Fin 65536) (n : Nat) (hn : n < 2 ^ 31) (h : x1 (ix1 r) = BitVec.ofNat 32 n) :
    val_main_v28 (F := Ideal) x1 (ix2 r (0 : Fin 1)) = BitVec.ofNat 32 n :=
  (val_main_v28_apply (F := Ideal) x1 (ix2 r (0 : Fin 1))).trans
    ((congrArg (val_main_v26 (F := Ideal) x1) (col_over idx_main_v28 (fun _ => rfl) r)).trans (v26_at x1 r n hn h))

theorem v42_at (r : Fin 65536) (n : Nat) (hn : n < 2 ^ 31) (h : x1 (ix1 r) = BitVec.ofNat 32 n) :
    val_main_v42 (F := Ideal) x1 (ix2 r (0 : Fin 1)) = BitVec.ofNat 32 n :=
  (val_main_v42_apply (F := Ideal) x1 (ix2 r (0 : Fin 1))).trans
    ((congrArg (val_main_v40 (F := Ideal) x1) (col_over idx_main_v42 (fun _ => rfl) r)).trans (v40_at x1 r n hn h))

theorem v56_at (r : Fin 65536) (n : Nat) (hn : n < 2 ^ 31) (h : x1 (ix1 r) = BitVec.ofNat 32 n) :
    val_main_v56 (F := Ideal) x1 (ix2 r (0 : Fin 1)) = BitVec.ofNat 32 n :=
  (val_main_v56_apply (F := Ideal) x1 (ix2 r (0 : Fin 1))).trans
    ((congrArg (val_main_v55 (F := Ideal) x1) (col_over idx_main_v56 (fun _ => rfl) r)).trans (v55_at x1 r n hn h))

/-- Two columns joined side by side: cell (r, 0) is the first column's cell r … -/
theorem join_left (a b : IVec S65536x1 32) (h : Shape.Concatenates [S65536x1, S65536x1] S65536x2 1) (r : Fin 65536) :
    concatenate S65536x2 1 [⟨S65536x1, a⟩, ⟨S65536x1, b⟩] h (ix2 r (0 : Fin 2)) = a (ix2 r (0 : Fin 1)) :=
  concatenate_pair_apply_left (t := S65536x2) (s₁ := S65536x1) (s₂ := S65536x1) 1 a b h (ix2 r (0 : Fin 2)) rfl
    (ix2 r (0 : Fin 1)) (fun c => match c with | ⟨0, _⟩ => rfl | ⟨1, _⟩ => rfl)

/-- … and cell (r, 1) the second column's cell r. -/
theorem join_right (a b : IVec S65536x1 32) (h : Shape.Concatenates [S65536x1, S65536x1] S65536x2 1) (r : Fin 65536) :
    concatenate S65536x2 1 [⟨S65536x1, a⟩, ⟨S65536x1, b⟩] h (ix2 r (1 : Fin 2)) = b (ix2 r (0 : Fin 1)) :=
  concatenate_pair_apply_right (t := S65536x2) (s₁ := S65536x1) (s₂ := S65536x1) 1 a b h (ix2 r (1 : Fin 2)) rfl rfl
    (ix2 r (0 : Fin 1))
    (fun c hc => match c, hc with
      | ⟨0, _⟩, _ => rfl
      | ⟨1, _⟩, hc => absurd (Fin.ext rfl) hc)
    rfl

end Tables

/-! ## The three gathers at row r -/

section Gathers
variable (x0 : (⟨S65536x1024, .f32⟩ : BufTy).Contents (Elt Ideal)) (x1 : (⟨S65536, .i32⟩ : BufTy).Contents (Elt Ideal))

/-- The gather of the probabilities reads row r at the class of r. -/
theorem v30_at (r : Fin 65536) (c : Fin 1024) (hc : x1 (ix1 r) = BitVec.ofNat 32 c.val) :
    val_main_v30 (F := Ideal) x0 x1 (ix1 r) = val_main_v15 (F := Ideal) x0 (ix2 r c) := by
  have h0 : val_main_v29 (F := Ideal) x1 (ix2 r (0 : Fin 2)) = BitVec.ofNat 32 r.val :=
    (join_left (val_main_v27 (F := Ideal)) (val_main_v28 (F := Ideal) x1) _ r).trans (v27_at r)
  have h1 : val_main_v29 (F := Ideal) x1 (ix2 r (1 : Fin 2)) = BitVec.ofNat 32 c.val :=
    (join_right (val_main_v27 (F := Ideal)) (val_main_v28 (F := Ideal) x1) _ r).trans (v28_at x1 r c.val (by have := c.isLt; omega) hc)
  refine (gather2_gen (val_main_v15 (F := Ideal) x0) (val_main_v29 (F := Ideal) x1) r).trans ?_
  exact congrArg (val_main_v15 (F := Ideal) x0)
    (congrArg₂ (fun (a : Fin 65536) (b : Fin 1024) => ix2 a b) (clampFin _ r (by norm_num) h0 _) (clampFin _ c (by norm_num) h1 _))

/-- The gather of the log-probabilities reads row r at the class of r. -/
theorem v44_at (r : Fin 65536) (c : Fin 1024) (hc : x1 (ix1 r) = BitVec.ofNat 32 c.val) :
    val_main_v44 (F := Ideal) x0 x1 (ix1 r) = val_main_v14 (F := Ideal) x0 (ix2 r c) := by
  have h0 : val_main_v43 (F := Ideal) x1 (ix2 r (0 : Fin 2)) = BitVec.ofNat 32 r.val :=
    (join_left (val_main_v41 (F := Ideal)) (val_main_v42 (F := Ideal) x1) _ r).trans (v41_at r)
  have h1 : val_main_v43 (F := Ideal) x1 (ix2 r (1 : Fin 2)) = BitVec.ofNat 32 c.val :=
    (join_right (val_main_v41 (F := Ideal)) (val_main_v42 (F := Ideal) x1) _ r).trans (v42_at x1 r c.val (by have := c.isLt; omega) hc)
  refine (gather2_gen (val_main_v14 (F := Ideal) x0) (val_main_v43 (F := Ideal) x1) r).trans ?_
  exact congrArg (val_main_v14 (F := Ideal) x0)
    (congrArg₂ (fun (a : Fin 65536) (b : Fin 1024) => ix2 a b) (clampFin _ r (by norm_num) h0 _) (clampFin _ c (by norm_num) h1 _))

/-- The take of the class weights reads them at the class of r. -/
theorem v57_at (r : Fin 65536) (c : Fin 1024) (hc : x1 (ix1 r) = BitVec.ofNat 32 c.val) :
    val_main_v57 (F := Ideal) x1 (ix1 r) = val_main_v13 (F := Ideal) x1 (ix1 c) := by
  have e1 : ∀ {n : Nat} (k : Fin n), (ix1 k : (⟨1, ![n]⟩ : Shape).Idx) = Shape.Idx.ofFin k :=
    fun k => funext fun a => match a with | ⟨0, _⟩ => rfl
  have e2 : (StableHlo.Predicate.ixP r : (⟨2, ![65536, 1]⟩ : Shape).Idx) = ix2 r (0 : Fin 1) :=
    funext fun a => match a with | ⟨0, _⟩ => rfl | ⟨1, _⟩ => rfl
  have h56 : val_main_v56 (F := Ideal) x1 (StableHlo.Predicate.ixP r) = BitVec.ofNat 32 c.val :=
    (congrArg (val_main_v56 (F := Ideal) x1) e2).trans (v56_at x1 r c.val (by have := c.isLt; omega) hc)
  refine (congrArg (val_main_v57 (F := Ideal) x1) (e1 r)).trans ?_
  refine (StableHlo.Predicate.gather_take gather_S1024_S65536x1_S65536_n_0_n_n_0_1_1 rfl rfl rfl rfl
    (val_main_v13 (F := Ideal) x1) (val_main_v56 (F := Ideal) x1) r (by norm_num)).trans ?_
  exact congrArg (val_main_v13 (F := Ideal) x1)
    ((congrArg Shape.Idx.ofFin (clampFin _ c (by norm_num) h56 _)).trans (e1 c).symm)

end Gathers

/-! ## The log-softmax of row r -/

section LogSoftmax
variable (x0 : (⟨S65536x1024, .f32⟩ : BufTy).Contents (Elt Ideal))

/-- The reduced index r with column k put back is (r, k). -/
theorem lift_row (h : S65536x1024.Reduces [1] S65536) (r : Fin 65536) (k : Fin (S65536x1024.size 1)) :
    h.lift (ix1 r) k = ix2 r (⟨k.val, k.isLt⟩ : Fin 1024) := by
  funext c
  apply Fin.ext
  match c with
  | ⟨0, _⟩ => rfl
  | ⟨1, _⟩ => rfl

/-- The reduce with a maximum body along the columns, at row r, is the fold of max over the row. -/
theorem rowmax_gen (x : S65536x1024.Idx → EReal) (init : S_.Idx → EReal) (h' : S65536x1024.ReducesTo [1] S65536)
    (hu : 0 < S_.numel) (r : Fin 65536) :
    Host.reduce (FloatOps.maximumf (F := Ideal) (φ := .f32)) x init h' hu (ix1 r)
      = Finset.fold max (init (Shape.Idx.first hu)) (fun k : Fin 1024 => x (ix2 r k)) Finset.univ := by
  have h : S65536x1024.Reduces [1] S65536 := by decide
  refine (Host.reduce_eq_fold_single (FloatOps.maximumf (F := Ideal) (φ := .f32)) x init h' h hu (ix1 r)).trans ?_
  have hf : (x ∘ h.lift (ix1 r)) = fun k : Fin 1024 => x (ix2 r k) := funext fun k => congrArg x (lift_row h r k)
  exact congrArg (fun f => Finset.fold max (init (Shape.Idx.first hu)) f (Finset.univ : Finset (Fin 1024))) hf

/-- The row maximum of row r. -/
theorem v0_at (r : Fin 65536) :
    val_main_call0_v0 (F := Ideal) x0 (ix1 r) = Cert.Focal.rmax (fun j : Fin 1024 => x0 (ix2 r j)) := by
  refine (rowmax_gen x0 (val_main_call0_cst (F := Ideal)) _ _ r).trans ?_
  show Finset.fold max (Ideal.ofBits .f32 0xFF800000#32 : EReal) (fun k : Fin 1024 => x0 (ix2 r k)) Finset.univ = _
  rw [Cert.Focal.ofBits_neg_inf]
  rfl

/-- The maximum of −∞ and the row maximum is the row maximum. -/
theorem v2_at (r : Fin 65536) :
    val_main_call0_v2 (F := Ideal) x0 (ix1 r) = Cert.Focal.rmax (fun j : Fin 1024 => x0 (ix2 r j)) := by
  have h1 : val_main_call0_v1 (F := Ideal) (ix1 r) = (⊥ : EReal) :=
    (val_main_call0_v1_apply (F := Ideal) (ix1 r)).trans
      (rd_const (val_main_call0_cst_0_apply (F := Ideal) _) Cert.Focal.ofBits_neg_inf)
  exact (rd_max (val_main_call0_v2_apply (F := Ideal) x0 (ix1 r)) h1 (v0_at x0 r)).trans (max_bot_left _)

/-- The shifted logit at (r, j). -/
theorem v5_at (r : Fin 65536) (j : Fin 1024) :
    val_main_call0_v5 (F := Ideal) x0 (ix2 r j) = Cert.Focal.shift (fun j : Fin 1024 => x0 (ix2 r j)) j := by
  have e : idx_main_call0_v3 (idx_main_call0_v4 (ix2 r j)) = ix1 r :=
    funext fun a => match a with | ⟨0, _⟩ => rfl
  have h4 : val_main_call0_v4 (F := Ideal) x0 (ix2 r j) = Cert.Focal.rmax (fun j : Fin 1024 => x0 (ix2 r j)) :=
    (val_main_call0_v4_apply (F := Ideal) x0 (ix2 r j)).trans
      ((val_main_call0_v3_apply (F := Ideal) x0 _).trans
        ((congrArg (val_main_call0_v2 (F := Ideal) x0) e).trans (v2_at x0 r)))
  exact rd_sub (val_main_call0_v5_apply (F := Ideal) x0 (ix2 r j)) rfl h4

/-- The logarithm of the sum of the exponentials of the shifted row r. -/
theorem v9_at (r : Fin 65536) :
    val_main_call0_v9 (F := Ideal) x0 (ix2 r (0 : Fin 1)) = Cert.Focal.lse (fun j : Fin 1024 => x0 (ix2 r j)) := by
  have e8 : idx_main_call0_v8 (ix2 r (0 : Fin 1)) = ix1 r :=
    funext fun a => match a with | ⟨0, _⟩ => rfl
  have e7 : ∀ k : Fin 1024, idx_main_call0_v7 (ix1 r) k = ix2 r k :=
    fun k => funext fun a => match a with | ⟨0, _⟩ => rfl | ⟨1, _⟩ => rfl
  have hs : (∑ k : Fin 1024, (val_main_call0_v6 (F := Ideal) x0 (idx_main_call0_v7 (ix1 r) k) : EReal))
      = ∑ k : Fin 1024, Ideal.exp (Cert.Focal.shift (fun j : Fin 1024 => x0 (ix2 r j)) k) :=
    Finset.sum_congr rfl fun k _ =>
      (congrArg (val_main_call0_v6 (F := Ideal) x0) (e7 k)).trans
        (rd_exp (val_main_call0_v6_apply (F := Ideal) x0 (ix2 r k)) (v5_at x0 r k))
  have hz : ∀ i, val_main_call0_cst_1 (F := Ideal) i = (0 : EReal) :=
    fun i => rd_const (val_main_call0_cst_1_apply (F := Ideal) i) Ideal.ofBits_zero_f32
  have h7 : val_main_call0_v7 (F := Ideal) x0 (ix1 r)
      = ∑ k : Fin 1024, Ideal.exp (Cert.Focal.shift (fun j : Fin 1024 => x0 (ix2 r j)) k) :=
    (val_main_call0_v7_apply x0 (ix1 r)).trans
      ((congrArg₂ (fun a b : EReal => a + b) (hz _) hs).trans (zero_add _))
  have h8 : val_main_call0_v8 (F := Ideal) x0 (ix2 r (0 : Fin 1))
      = ∑ k : Fin 1024, Ideal.exp (Cert.Focal.shift (fun j : Fin 1024 => x0 (ix2 r j)) k) :=
    (val_main_call0_v8_apply (F := Ideal) x0 (ix2 r (0 : Fin 1))).trans
      ((congrArg (val_main_call0_v7 (F := Ideal) x0) e8).trans h7)
  exact rd_log (val_main_call0_v9_apply (F := Ideal) x0 (ix2 r (0 : Fin 1))) h8

/-- The log-probability at (r, j). -/
theorem v14_at (r : Fin 65536) (j : Fin 1024) :
    val_main_v14 (F := Ideal) x0 (ix2 r j) = Cert.Focal.logp (fun j : Fin 1024 => x0 (ix2 r j)) j := by
  have e10 : idx_main_call0_v10 (ix2 r j) = ix2 r (0 : Fin 1) :=
    funext fun a => match a with | ⟨0, _⟩ => rfl | ⟨1, _⟩ => rfl
  have h10 : val_main_call0_v10 (F := Ideal) x0 (ix2 r j) = Cert.Focal.lse (fun j : Fin 1024 => x0 (ix2 r j)) :=
    (val_main_call0_v10_apply (F := Ideal) x0 (ix2 r j)).trans
      ((congrArg (val_main_call0_v9 (F := Ideal) x0) e10).trans (v9_at x0 r))
  exact rd_sub (val_main_v14_apply (F := Ideal) x0 (ix2 r j)) (v5_at x0 r j) h10

end LogSoftmax

/-! ## The loss of row r, and the batch -/

/-- Row r of the product the reference sums is the reference's loss of row r. -/
theorem row_at (x0 : (⟨S65536x1024, .f32⟩ : BufTy).Contents (Elt Ideal)) (x1 : (⟨S65536, .i32⟩ : BufTy).Contents (Elt Ideal))
    (cls : Fin 65536 → Fin 1024) (hcls : ∀ r : Fin 65536, x1 (ix1 r) = BitVec.ofNat 32 (cls r).val) (r : Fin 65536) :
    val_main_v58 (F := Ideal) x0 x1 (ix1 r)
      = Cert.Focal.rowR (fun j : Fin 1024 => x0 (ix2 r j)) (cls r) (fun j : Fin 1024 => val_main_v13 (F := Ideal) x1 (ix1 j)) := by
  have hc := hcls r
  have h30 : val_main_v30 (F := Ideal) x0 x1 (ix1 r)
      = Ideal.exp (Cert.Focal.logp (fun j : Fin 1024 => x0 (ix2 r j)) (cls r)) :=
    (v30_at x0 x1 r (cls r) hc).trans
      (rd_exp (val_main_v15_apply (F := Ideal) x0 (ix2 r (cls r))) (v14_at x0 r (cls r)))
  have h44 : val_main_v44 (F := Ideal) x0 x1 (ix1 r) = Cert.Focal.logp (fun j : Fin 1024 => x0 (ix2 r j)) (cls r) :=
    (v44_at x0 x1 r (cls r) hc).trans (v14_at x0 r (cls r))
  have h57 : val_main_v57 (F := Ideal) x1 (ix1 r) = val_main_v13 (F := Ideal) x1 (ix1 (cls r)) :=
    v57_at x1 r (cls r) hc
  have h45 : val_main_v45 (F := Ideal) (ix1 r) = (1 : EReal) :=
    (val_main_v45_apply (F := Ideal) (ix1 r)).trans
      (rd_const (val_main_cst_12_apply (F := Ideal) _) Cert.Focal.ofBits_one)
  have h47 : val_main_v47 (F := Ideal) (ix1 r) = ((2 : ℝ) : EReal) :=
    (val_main_v47_apply (F := Ideal) (ix1 r)).trans
      (rd_const (val_main_cst_13_apply (F := Ideal) _) Cert.Focal.ofBits_two)
  have h46 : val_main_v46 (F := Ideal) x0 x1 (ix1 r)
      = 1 - Ideal.exp (Cert.Focal.logp (fun j : Fin 1024 => x0 (ix2 r j)) (cls r)) :=
    rd_sub (val_main_v46_apply (F := Ideal) x0 x1 (ix1 r)) h45 h30
  have h48 : val_main_v48 (F := Ideal) x0 x1 (ix1 r)
      = Ideal.pow (1 - Ideal.exp (Cert.Focal.logp (fun j : Fin 1024 => x0 (ix2 r j)) (cls r))) ((2 : ℝ) : EReal) :=
    rd_pow (val_main_v48_apply (F := Ideal) x0 x1 (ix1 r)) h46 h47
  have h49 : val_main_v49 (F := Ideal) x0 x1 (ix1 r)
      = -(Ideal.pow (1 - Ideal.exp (Cert.Focal.logp (fun j : Fin 1024 => x0 (ix2 r j)) (cls r))) ((2 : ℝ) : EReal)) :=
    rd_neg (val_main_v49_apply (F := Ideal) x0 x1 (ix1 r)) h48
  have h50 : val_main_v50 (F := Ideal) x0 x1 (ix1 r)
      = (-(Ideal.pow (1 - Ideal.exp (Cert.Focal.logp (fun j : Fin 1024 => x0 (ix2 r j)) (cls r))) ((2 : ℝ) : EReal)))
          * Cert.Focal.logp (fun j : Fin 1024 => x0 (ix2 r j)) (cls r) :=
    rd_mul (val_main_v50_apply (F := Ideal) x0 x1 (ix1 r)) h49 h44
  exact rd_mul (val_main_v58_apply (F := Ideal) x0 x1 (ix1 r)) h50 h57

/-- THE REFERENCE'S VALUE. -/
theorem ref_value (x0 : (⟨S65536x1024, .f32⟩ : BufTy).Contents (Elt Ideal)) (x1 : (⟨S65536, .i32⟩ : BufTy).Contents (Elt Ideal))
    (cls : Fin 65536 → Fin 1024) (hcls : ∀ r : Fin 65536, x1 (ix1 r) = BitVec.ofNat 32 (cls r).val) :
    val_main_v60 (F := Ideal) x0 x1
      = fun _ => Ideal.div (0 + ∑ r : Fin 65536,
          Cert.Focal.rowR (fun j : Fin 1024 => x0 (ix2 r j)) (cls r) (fun j : Fin 1024 => val_main_v13 (F := Ideal) x1 (ix1 j)))
          (Ideal.ofBits .f32 0x47800000#32) := by
  funext i
  have hsum : (∑ j : S65536.Idx, (val_main_v58 (F := Ideal) x0 x1 j : EReal))
      = ∑ r : Fin 65536,
          Cert.Focal.rowR (fun j : Fin 1024 => x0 (ix2 r j)) (cls r) (fun j : Fin 1024 => val_main_v13 (F := Ideal) x1 (ix1 j)) :=
    (Equiv.sum_comp (idxEquiv1 (n := 65536)).symm (fun j : S65536.Idx => (val_main_v58 (F := Ideal) x0 x1 j : EReal))).symm.trans
      (Finset.sum_congr rfl fun r _ => row_at x0 x1 cls hcls r)
  have hz : ∀ i, val_main_cst_16 (F := Ideal) i = (0 : EReal) :=
    fun i => rd_const (val_main_cst_16_apply (F := Ideal) i) Ideal.ofBits_zero_f32
  have h59 : val_main_v59 (F := Ideal) x0 x1 i
      = 0 + ∑ r : Fin 65536,
          Cert.Focal.rowR (fun j : Fin 1024 => x0 (ix2 r j)) (cls r) (fun j : Fin 1024 => val_main_v13 (F := Ideal) x1 (ix1 j)) :=
    (val_main_v59_apply x0 x1 i).trans (congrArg₂ (fun a b : EReal => a + b) (hz _) hsum)
  have h17 : val_main_cst_17 (F := Ideal) i = Ideal.ofBits .f32 0x47800000#32 :=
    rd_const (val_main_cst_17_apply (F := Ideal) i) rfl
  exact rd_div (val_main_v60_apply (F := Ideal) x0 x1 i) h59 h17

end Cert.ReferenceIdeal.RefValue

end
-- ==== Proof.PreDecode.lean ====
/-
  The precondition, decoded: it says every logit is a finite number and every class word w satisfies 0 ≤ w < 1024
  (as a signed 32-bit integer).  So every logit is a real number, and every class word is the number of a column.
-/
import proofs.«415318_j29231547417214_2_alg».proof.Pre_finite_inputs
import Idealize.ShloMosaic.Lib.ValueIdx
import Idealize.ShloMosaic.Lib.ReduceAll
import Idealize.ShloMosaic.Lib.StableHlo.Predicate
import Idealize.ShloMosaic.PureOps.Ideal.Laws

noncomputable section

open Idealize.ShloMosaic Idealize.ShloMosaic.ValueIdx

namespace Cert.Focal.Pre

open Cert.Pre_finite_inputs

variable [Cert.Pre_finite_inputs.Facts]

/-- An extended real whose absolute value is below +∞ is a real number. -/
theorem real_of_abs_lt_top (a : EReal) (ha : max a (-a) < ⊤) : ∃ r : ℝ, a = (r : EReal) := by
  induction a with
  | bot => simp at ha
  | coe r => exact ⟨r, rfl⟩
  | top => simp at ha

/-- The pattern 0x7F800000 denotes +∞. -/
theorem ofBits_pos_inf : Ideal.ofBits .f32 0x7F800000#32 = (⊤ : EReal) := by
  simp [Ideal.ofBits, Ideal.ieee]

/-- A 32-bit word that is at least 0 and below 1024 as a signed integer has a value below 1024. -/
theorem word_range (w : BitVec 32) (h1 : IntOp.cmpi .sge w 0#32 = 1#1) (h2 : IntOp.cmpi .slt w 1024#32 = 1#1) :
    w.toNat < 1024 := by
  simp only [IntOp.cmpi, StableHlo.Predicate.ofBool_eq_one_iff, BitVec.sle, BitVec.slt, decide_eq_true_eq] at h1 h2
  have e0 : (0#32 : BitVec 32).toInt = 0 := by decide
  have e1 : (1024#32 : BitVec 32).toInt = 1024 := by decide
  rw [e0] at h1
  rw [e1] at h2
  have hw := w.isLt
  rw [BitVec.toInt_eq_toNat_cond] at h1 h2
  split_ifs at h1 h2 <;> omega

/-- A word is the word of its value. -/
theorem word_eq (w : BitVec 32) : w = BitVec.ofNat 32 w.toNat := by
  apply BitVec.eq_of_toNat_eq
  rw [BitVec.toNat_ofNat]
  exact (Nat.mod_eq_of_lt w.isLt).symm

/-- Every logit is a real number and every class word is the number of a column. -/
theorem decode (x0 : FVec Ideal S65536x1024 .f32) (x1 : IVec S65536 32)
    (h : Cert.Pre_finite_inputs.fn (F := Ideal) x0 x1 = fun _ => 1#1) :
    (∀ i : S65536x1024.Idx, ∃ r : ℝ, x0 i = (r : EReal))
      ∧ ∃ cls : Fin 65536 → Fin 1024, ∀ r : Fin 65536, x1 (ix1 r) = BitVec.ofNat 32 (cls r).val := by
  haveI : Subsingleton S_.Idx := ⟨fun a b => funext fun d => d.elim0⟩
  have h0 := congrFun h ValueIdx.ix0
  dsimp only [Cert.Pre_finite_inputs.fn] at h0
  obtain ⟨h12, h3⟩ := IntOp.andi_eq_one.1 h0
  obtain ⟨h1, h2⟩ := IntOp.andi_eq_one.1 h12
  refine ⟨fun i => ?_, ?_⟩
  · have e := Host.reduce_andi_all _ _ _ _ ix0 h1 i
    change Ideal.cmp .olt (max (x0 i) (-(x0 i))) (Ideal.ofBits .f32 0x7F800000#32) = 1#1 at e
    rw [ofBits_pos_inf] at e
    simp only [Ideal.cmp, StableHlo.Predicate.ofBool_eq_one_iff, decide_eq_true_eq] at e
    exact real_of_abs_lt_top _ e
  · have hr : ∀ r : Fin 65536, (x1 (ix1 r)).toNat < 1024 := fun r => by
      have e2 := Host.reduce_andi_all _ _ _ _ ix0 h2 (ix1 r)
      have e3 := Host.reduce_andi_all _ _ _ _ ix0 h3 (ix1 r)
      change IntOp.cmpi .sge (x1 (ix1 r)) 0#32 = 1#1 at e2
      change IntOp.cmpi .slt (x1 (ix1 r)) 1024#32 = 1#1 at e3
      exact word_range _ e2 e3
    exact ⟨fun r => ⟨(x1 (ix1 r)).toNat, hr r⟩, fun r => word_eq _⟩

end Cert.Focal.Pre

end
-- ==== Proof.lean ====
/-
  The certificate of the focal-loss kernel against its reference, over the extended reals.

  Both programs compute, for logits x (65536 rows of 1024), class words t and class weights w (the class
  histogram's minimum over each count, plus a constant: the same host operations in both programs),
      (Σ_r −(1 − p_r)² · ℓ_r · w_{t_r}) / 65536,    ℓ_r = log-softmax of row r at class t_r,  p_r = exp ℓ_r.
  The kernel picks x_{r,t_r} − max and w_{t_r} out by a one-hot mask, squares by a product, and adds the rows block
  by block into a per-core accumulator (two cores, 64 blocks of 512 rows each), the host adding the two cores' sums;
  the reference indexes, squares by the power function, and adds all rows at once.  Under the precondition (finite
  logits, class words in [0, 1024)) every row's two losses are one extended real (the row law, Spec.lean), and the
  block-by-block sum is the whole sum (addition of extended reals is associative and commutative).
  The three frames are the generated ones (the reference's from its run); no rewrite was applied by the
  idealization, so `preserves` is trivial.
-/
import proofs.«415318_j29231547417214_2_alg».proof.Proof.Gen.Kernel
import proofs.«415318_j29231547417214_2_alg».proof.Proof.Gen.Kernel.Frame
import proofs.«415318_j29231547417214_2_alg».proof.Proof.Gen.KernelIdeal
import proofs.«415318_j29231547417214_2_alg».proof.Proof.Gen.KernelIdeal.Frame
import proofs.«415318_j29231547417214_2_alg».proof.Proof.Gen.ReferenceIdeal
import proofs.«415318_j29231547417214_2_alg».proof.Proof.RefRun
import proofs.«415318_j29231547417214_2_alg».proof.Proof.RefRead
import proofs.«415318_j29231547417214_2_alg».proof.Proof.Gen.Pre_finite_inputs
import proofs.«415318_j29231547417214_2_alg».proof.Proof.Spec
import proofs.«415318_j29231547417214_2_alg».proof.Proof.KValue
import proofs.«415318_j29231547417214_2_alg».proof.Proof.RefValue
import proofs.«415318_j29231547417214_2_alg».proof.Proof.PreDecode
import proofs.«415318_j29231547417214_2_alg».proof.Defs
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

namespace Claims

variable [hK : Cert.Kernel.Facts] [hKI : Cert.KernelIdeal.Facts] [hRI : Cert.ReferenceIdeal.Facts] [hP : Cert.Pre_finite_inputs.Facts]

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

section Weights

open Cert.KernelIdeal in
/-- The class weights as a function of the class words, at any float family: the histogram of the (wrapped) words by a
    scatter-add of ones into zeros, its minimum divided by each count, plus the constant. -/
def weights {F : FTy → Type} [FloatOps F] (t : IVec Cert.KernelIdeal.S65536 32) : FVec F Cert.KernelIdeal.S1024 .f32 :=
  addf (F := F) (Host.divf (broadcastInDim S1024 ![] Facts₀.bcast_S_S1024
        (Host.reduce FloatOps.minimumf
          (Host.scatterAdd scatter_S1024_S65536x1_S65536_n_0_0_1 (broadcastInDim S1024 ![] Facts₀.bcast_S_S1024 (constant S_ .f32 0x00000000#32))
            (broadcastInDim S65536x1 ![0] Facts₀.bcast_S65536_S65536x1_0 (select (cmpi .slt t (broadcastInDim S65536 ![] Facts₀.bcast_S_S65536 (constantI S_ 32 0#32))) (addi t (broadcastInDim S65536 ![] Facts₀.bcast_S_S65536 (constantI S_ 32 1024#32))) t))
            (broadcastInDim S65536 ![] Facts₀.bcast_S_S65536 (constant S_ .f32 0x3F800000#32)))
          (constant S_ .f32 0x7F800000#32) Facts₀.reducesTo_S1024_S_d0 Facts₀.h_S_))
        (Host.scatterAdd scatter_S1024_S65536x1_S65536_n_0_0_1 (broadcastInDim S1024 ![] Facts₀.bcast_S_S1024 (constant S_ .f32 0x00000000#32))
            (broadcastInDim S65536x1 ![0] Facts₀.bcast_S65536_S65536x1_0 (select (cmpi .slt t (broadcastInDim S65536 ![] Facts₀.bcast_S_S65536 (constantI S_ 32 0#32))) (addi t (broadcastInDim S65536 ![] Facts₀.bcast_S_S65536 (constantI S_ 32 1024#32))) t))
            (broadcastInDim S65536 ![] Facts₀.bcast_S_S65536 (constant S_ .f32 0x3F800000#32))))
      (broadcastInDim S1024 ![] Facts₀.bcast_S_S1024 (constant S_ .f32 0x3727C5AC#32))

/-- The reference computes the class weights by the same operations: its stage is that function. -/
theorem weights_ref {F : FTy → Type} [FloatOps F] (t : IVec Cert.KernelIdeal.S65536 32) :
    weights (F := F) t = Cert.ReferenceIdeal.ReadP.val_main_v13 (F := F) t := rfl

end Weights

/-- The class weights are one function of the class words in both programs: the same host operations. -/
theorem weights_eq (m : (ℓ : Loc Cert.KernelIdeal.nD Cert.KernelIdeal.τ Cert.KernelIdeal.sig) → Buf (Elt Ideal) ℓ) (c : Dev Cert.KernelIdeal.nD) :
    Cert.KernelIdeal.Blocks.ws m c
      = Cert.ReferenceIdeal.ReadP.val_main_v13 (F := Ideal) (m ((c.tc : Thread Cert.KernelIdeal.nD Cert.KernelIdeal.τ).loc Cert.KernelIdeal.main_arg1)) := by
  have h : Cert.KernelIdeal.Blocks.ws m c = weights (F := Ideal) (Cert.KernelIdeal.Blocks.ts m c) := by
    unfold weights
    exact Cert.KernelIdeal.Blocks.ws_eq m c
  rw [h]
  exact weights_ref (F := Ideal) (Cert.KernelIdeal.Blocks.ts m c)

/-- Both programs end at (the sum of the rows' losses) / 65536. -/
theorem algebraic : Cert.algebraic_KernelIdeal_ReferenceIdeal := by
  intro m ρ m' ρ' hpre hagree
  refine ⟨fun c => (fun _ => Ideal.div (Cert.KernelIdeal.KValue.S0 m c + Cert.KernelIdeal.KValue.S1 m c) (Ideal.ofBits .f32 0x47800000#32)),
    Cert.KernelIdeal.KValue.run m ρ, ?_⟩
  refine (θ_run Cert.ReferenceIdeal.defs _ _).mono (fun _ h c => ⟨(h c).1.trans ?_, (h c).2⟩)
    (Cert.ReferenceIdeal.ValueP.run (F := Ideal) m' ρ')
  obtain ⟨hfin, cls, hcls⟩ := Cert.Focal.Pre.decode _ _ (hpre c)
  rw [Cert.ReferenceIdeal.ReadP.val_main_v60_eq, (hagree c).1, (hagree c).2,
    Cert.ReferenceIdeal.RefValue.ref_value _ _ cls hcls]
  funext _
  refine congrArg (fun s : EReal => Ideal.div s (Ideal.ofBits .f32 0x47800000#32)) ?_
  rw [zero_add]
  unfold Cert.KernelIdeal.KValue.S0 Cert.KernelIdeal.KValue.S1
  rw [Cert.Focal.sum_halves]
  refine Finset.sum_congr rfl fun r _ => ?_
  unfold Cert.KernelIdeal.Invariant.Kn
  rw [dif_pos r.isLt]
  have hw : Cert.KernelIdeal.Blocks.ts m c (ix1 ⟨r.val, r.isLt⟩) = BitVec.ofNat 32 (cls r).val := hcls r
  rw [hw, Cert.Focal.rowK_eq_rowR _ (fun j => hfin _) (cls r), weights_eq m c]

end Claims

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
